-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x768 : Shape := ⟨3, ![4, 64, 768]⟩
abbrev S1x8x768 : Shape := ⟨3, ![1, 8, 768]⟩
abbrev S1x8x96x768 : Shape := ⟨4, ![1, 8, 96, 768]⟩
abbrev S768 : Shape := ⟨1, ![768]⟩
abbrev S_ : Shape := ⟨0, ![]⟩

class Facts : Prop where
  bcast_S_S4x64x768 : S_.BroadcastsInDim S4x64x768 (![] : Fin 0 → Fin S4x64x768.rank)
  reducesTo_S4x64x768_S_d0_1_2 : S4x64x768.ReducesTo [0, 1, 2] S_
  h_S_ : 0 < S_.numel
  bcast_S_S1x8x768 : S_.BroadcastsInDim S1x8x768 (![] : Fin 0 → Fin S1x8x768.rank)
  reducesTo_S1x8x768_S_d0_1_2 : S1x8x768.ReducesTo [0, 1, 2] S_
  bcast_S_S768 : S_.BroadcastsInDim S768 (![] : Fin 0 → Fin S768.rank)
  reducesTo_S768_S_d0 : S768.ReducesTo [0] S_
  bcast_S_S1x8x96x768 : S_.BroadcastsInDim S1x8x96x768 (![] : Fin 0 → Fin S1x8x96x768.rank)
  reducesTo_S1x8x96x768_S_d0_1_2_3 : S1x8x96x768.ReducesTo [0, 1, 2, 3] S_

variable [Facts]

def fn_part1 {F : FTy → Type} [FloatOps F] (main_arg2 : IVec S1x8x96x768 32) (main_v13 : IVec S_ 1) (main_v15 : IVec S1x8x96x768 1) (main_c_5 : IVec S_ 1) : IVec S_ 1 :=
  let main_v16 : IVec S_ 1 := (fun x v => Host.reduce IntOp.andi x v reducesTo_S1x8x96x768_S_d0_1_2_3 h_S_) main_v15 main_c_5
  let main_v17 : IVec S_ 1 := andi main_v13 main_v16
  let main_c_6 : IVec S_ 32 := constantI S_ 32 256#32
  let main_v18 : IVec S1x8x96x768 32 := broadcastInDim S1x8x96x768 ![] bcast_S_S1x8x96x768 main_c_6
  let main_v19 : IVec S1x8x96x768 1 := cmpi .slt main_arg2 main_v18
  let main_c_7 : IVec S_ 1 := constantI S_ 1 1#1
  let main_v20 : IVec S_ 1 := (fun x v => Host.reduce IntOp.andi x v reducesTo_S1x8x96x768_S_d0_1_2_3 h_S_) main_v19 main_c_7
  let main_v21 : IVec S_ 1 := andi main_v17 main_v20
  main_v21

def fn {F : FTy → Type} [FloatOps F] (main_arg0 : FVec F S4x64x768 .f32) (main_arg1 : FVec F S1x8x768 .f32) (main_arg2 : IVec S1x8x96x768 32) (main_arg3 : FVec F S768 .f32) : IVec S_ 1 :=
  let main_v0 : FVec F S4x64x768 .f32 := Host.absf main_arg0
  let main_cst : FVec F S_ .f32 := constant S_ .f32 0x7F800000#32
  let main_v1 : FVec F S4x64x768 .f32 := broadcastInDim S4x64x768 ![] bcast_S_S4x64x768 main_cst
  let main_v2 : IVec S4x64x768 1 := cmpf .olt main_v0 main_v1
  let main_c : IVec S_ 1 := constantI S_ 1 1#1
  let main_v3 : IVec S_ 1 := (fun x v => Host.reduce IntOp.andi x v reducesTo_S4x64x768_S_d0_1_2 h_S_) main_v2 main_c
  let main_v4 : FVec F S1x8x768 .f32 := Host.absf main_arg1
  let main_cst_0 : FVec F S_ .f32 := constant S_ .f32 0x7F800000#32
  let main_v5 : FVec F S1x8x768 .f32 := broadcastInDim S1x8x768 ![] bcast_S_S1x8x768 main_cst_0
  let main_v6 : IVec S1x8x768 1 := cmpf .olt main_v4 main_v5
  let main_c_1 : IVec S_ 1 := constantI S_ 1 1#1
  let main_v7 : IVec S_ 1 := (fun x v => Host.reduce IntOp.andi x v reducesTo_S1x8x768_S_d0_1_2 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_c_4 : IVec S_ 32 := constantI S_ 32 4294967040#32
  let main_v14 : IVec S1x8x96x768 32 := broadcastInDim S1x8x96x768 ![] bcast_S_S1x8x96x768 main_c_4
  let main_v15 : IVec S1x8x96x768 1 := cmpi .sge main_arg2 main_v14
  let main_c_5 : IVec S_ 1 := constantI S_ 1 1#1
  fn_part1 (F := F) main_arg2 main_v13 main_v15 main_c_5
-- ==== Kernel.lean ====
abbrev S4x64x768 : Shape := ⟨3, ![4, 64, 768]⟩
abbrev S1x8x768 : Shape := ⟨3, ![1, 8, 768]⟩
abbrev S1x8x96x768 : Shape := ⟨4, ![1, 8, 96, 768]⟩
abbrev S768 : Shape := ⟨1, ![768]⟩
abbrev S256x768 : Shape := ⟨2, ![256, 768]⟩
abbrev S8x96x768 : Shape := ⟨3, ![8, 96, 768]⟩
abbrev S8x768 : Shape := ⟨2, ![8, 768]⟩
abbrev S1x768 : Shape := ⟨2, ![1, 768]⟩
abbrev S8x96x384 : Shape := ⟨3, ![8, 96, 384]⟩
abbrev S8x384 : Shape := ⟨2, ![8, 384]⟩
abbrev S1x384 : Shape := ⟨2, ![1, 384]⟩
abbrev S256x384 : Shape := ⟨2, ![256, 384]⟩
abbrev S1x8x1 : Shape := ⟨3, ![1, 8, 1]⟩
abbrev S1x96x384 : Shape := ⟨3, ![1, 96, 384]⟩
abbrev S96x384 : Shape := ⟨2, ![96, 384]⟩
abbrev S96x1x384 : Shape := ⟨3, ![96, 1, 384]⟩
abbrev S384 : Shape := ⟨1, ![384]⟩
abbrev S1x1x384 : Shape := ⟨3, ![1, 1, 384]⟩
abbrev S96x8x384 : Shape := ⟨3, ![96, 8, 384]⟩
abbrev S768x384 : Shape := ⟨2, ![768, 384]⟩

abbrev nBuf : Space → Nat
  | .hbm => 10
  | .vmem => 9
  | .smem => 0
  | _ => 0

abbrev bufTy : (tb : Table) → Fin (tcTables nBuf tb) → BufTy
  | .hbm, ⟨0, _⟩ => ⟨S4x64x768, .f32⟩
  | .hbm, ⟨1, _⟩ => ⟨S1x8x768, .f32⟩
  | .hbm, ⟨2, _⟩ => ⟨S1x8x96x768, .i32⟩
  | .hbm, ⟨3, _⟩ => ⟨S768, .f32⟩
  | .hbm, ⟨4, _⟩ => ⟨S256x768, .f32⟩
  | .hbm, ⟨5, _⟩ => ⟨S8x96x768, .i32⟩
  | .hbm, ⟨6, _⟩ => ⟨S8x768, .f32⟩
  | .hbm, ⟨7, _⟩ => ⟨S1x768, .f32⟩
  | .hbm, ⟨8, _⟩ => ⟨S256x768, .f32⟩
  | .hbm, ⟨9, _⟩ => ⟨S4x64x768, .f32⟩
  | .local _ .vmem, ⟨0, _⟩ => ⟨S256x768, .f32⟩
  | .local _ .vmem, ⟨1, _⟩ => ⟨S8x96x384, .i32⟩
  | .local _ .vmem, ⟨2, _⟩ => ⟨S8x96x384, .i32⟩
  | .local _ .vmem, ⟨3, _⟩ => ⟨S8x384, .f32⟩
  | .local _ .vmem, ⟨4, _⟩ => ⟨S8x384, .f32⟩
  | .local _ .vmem, ⟨5, _⟩ => ⟨S1x384, .f32⟩
  | .local _ .vmem, ⟨6, _⟩ => ⟨S1x384, .f32⟩
  | .local _ .vmem, ⟨7, _⟩ => ⟨S256x384, .f32⟩
  | .local _ .vmem, ⟨8, _⟩ => ⟨S256x384, .f32⟩
  | _, _ => ⟨S4x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x96x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x64x768_S256x768 : S4x64x768.ShapeCasts S256x768
  shapeCasts_S1x8x96x768_S8x96x768 : S1x8x96x768.ShapeCasts S8x96x768
  shapeCasts_S1x8x768_S8x768 : S1x8x768.ShapeCasts S8x768
  shapeCasts_S768_S1x768 : S768.ShapeCasts S1x768
  iota_S1x8x1_d1_w32 : S1x8x1.Iotas .tc 32 [1]
  inb_S8x96x384_S1x96x384_0_0_0 : ∀ a, (![0, 0, 0] : Fin 3 → Nat) a + S1x96x384.size a ≤ S8x96x384.size a
  h_S1x96x384 : 0 < S1x96x384.numel
  shapeCasts_S1x96x384_S96x384 : S1x96x384.ShapeCasts S96x384
  shapeCasts_S96x384_S96x1x384 : S96x384.ShapeCasts S96x1x384
  inb_S8x384_S1x384_0_0 : ∀ a, (![0, 0] : Fin 2 → Nat) a + S1x384.size a ≤ S8x384.size a
  h_S1x384 : 0 < S1x384.numel
  shapeCasts_S1x384_S384 : S1x384.ShapeCasts S384
  shapeCasts_S384_S1x1x384 : S384.ShapeCasts S1x1x384
  broadcasts_S96x1x384_S96x8x384 : S96x1x384.Broadcasts S96x8x384
  broadcasts_S1x8x1_S96x8x384 : S1x8x1.Broadcasts S96x8x384
  shapeCasts_S1x1x384_S1x1x384 : S1x1x384.ShapeCasts S1x1x384
  broadcasts_S1x1x384_S96x8x384 : S1x1x384.Broadcasts S96x8x384
  inb_S8x96x384_S1x96x384_1_0_0 : ∀ a, (![1, 0, 0] : Fin 3 → Nat) a + S1x96x384.size a ≤ S8x96x384.size a
  inb_S8x384_S1x384_1_0 : ∀ a, (![1, 0] : Fin 2 → Nat) a + S1x384.size a ≤ S8x384.size a
  inb_S8x96x384_S1x96x384_2_0_0 : ∀ a, (![2, 0, 0] : Fin 3 → Nat) a + S1x96x384.size a ≤ S8x96x384.size a
  inb_S8x384_S1x384_2_0 : ∀ a, (![2, 0] : Fin 2 → Nat) a + S1x384.size a ≤ S8x384.size a
  inb_S8x96x384_S1x96x384_3_0_0 : ∀ a, (![3, 0, 0] : Fin 3 → Nat) a + S1x96x384.size a ≤ S8x96x384.size a
  inb_S8x384_S1x384_3_0 : ∀ a, (![3, 0] : Fin 2 → Nat) a + S1x384.size a ≤ S8x384.size a
  inb_S8x96x384_S1x96x384_4_0_0 : ∀ a, (![4, 0, 0] : Fin 3 → Nat) a + S1x96x384.size a ≤ S8x96x384.size a
  inb_S8x384_S1x384_4_0 : ∀ a, (![4, 0] : Fin 2 → Nat) a + S1x384.size a ≤ S8x384.size a
  inb_S8x96x384_S1x96x384_5_0_0 : ∀ a, (![5, 0, 0] : Fin 3 → Nat) a + S1x96x384.size a ≤ S8x96x384.size a
  inb_S8x384_S1x384_5_0 : ∀ a, (![5, 0] : Fin 2 → Nat) a + S1x384.size a ≤ S8x384.size a
  inb_S8x96x384_S1x96x384_6_0_0 : ∀ a, (![6, 0, 0] : Fin 3 → Nat) a + S1x96x384.size a ≤ S8x96x384.size a
  inb_S8x384_S1x384_6_0 : ∀ a, (![6, 0] : Fin 2 → Nat) a + S1x384.size a ≤ S8x384.size a
  inb_S8x96x384_S1x96x384_7_0_0 : ∀ a, (![7, 0, 0] : Fin 3 → Nat) a + S1x96x384.size a ≤ S8x96x384.size a
  inb_S8x384_S1x384_7_0 : ∀ a, (![7, 0] : Fin 2 → Nat) a + S1x384.size a ≤ S8x384.size a
  shapeCasts_S96x8x384_S768x384 : S96x8x384.ShapeCasts S768x384
  inb_S256x768_S256x768_0_0 : ∀ a, (![0, 0] : Fin 2 → Nat) a + S256x768.size a ≤ S256x768.size a
  h_S256x768 : 0 < S256x768.numel
  shapeCasts_S256x768_S256x768 : S256x768.ShapeCasts S256x768
  bitsLt_bf16_f32 : FTy.bits .bf16 < FTy.bits .f32
  inb_S1x384_S1x384_0_0 : ∀ a, (![0, 0] : Fin 2 → Nat) a + S1x384.size a ≤ S1x384.size a
  shapeCasts_S1x384_S1x384 : S1x384.ShapeCasts S1x384
  broadcasts_S1x384_S256x384 : S1x384.Broadcasts S256x384
  inb_S256x384_S256x384_0_0 : ∀ a, (![0, 0] : Fin 2 → Nat) a + S256x384.size a ≤ S256x384.size a
  h_S256x384 : 0 < S256x384.numel
  shapeCasts_S256x768_S4x64x768 : S256x768.ShapeCasts S4x64x768
  dot_S256x768_S768x384_S256x384_1_0_0_1_n_n_wf : DotDims.WF S256x768 S768x384 S256x384 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S256x768.size a
  hwx0_0 : ∀ i : grid0.Coords, EltTy.bits .f32 = 32 ∨ (Rect.block (s := S256x768) S256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x96x384.size a ≤ S8x96x768.size a
  hwx0_1 : ∀ i : grid0.Coords, EltTy.bits .i32 = 32 ∨ (Rect.block (s := S8x96x768) S8x96x384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x384.size a ≤ S8x768.size a
  hwx0_2 : ∀ i : grid0.Coords, EltTy.bits .f32 = 32 ∨ (Rect.block (s := S8x768) S8x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x768.size a
  hwx0_3 : ∀ i : grid0.Coords, EltTy.bits .f32 = 32 ∨ (Rect.block (s := S1x768) S1x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x384.size a ≤ S256x768.size a
  hwx0_4 : ∀ i : grid0.Coords, EltTy.bits .f32 = 32 ∨ (Rect.block (s := S256x768) S256x384.size (cc0_transform_4 i) (hinb0_4 i)).WholeWords (EltTy.packing .f32)

variable [Facts₀]

def dot_S256x768_S768x384_S256x384_1_0_0_1_n_n : DotDims S256x768 S768x384 S256x384 where
  lhsContracting := [1]
  rhsContracting := [0]
  lhsNonContracting := [0]
  rhsNonContracting := [1]
  lhsBatch := []
  rhsBatch := []
  wf := dot_S256x768_S768x384_S256x384_1_0_0_1_n_n_wf

abbrev win0_0 : Pipeline.Window sig grid0 :=
  Pipeline.Window.ofSpec (Memref.whole main_v0) S256x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x96x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x768 : Shape := ⟨3, ![4, 64, 768]⟩
abbrev S1x8x768 : Shape := ⟨3, ![1, 8, 768]⟩
abbrev S1x8x96x768 : Shape := ⟨4, ![1, 8, 96, 768]⟩
abbrev S768 : Shape := ⟨1, ![768]⟩
abbrev S256x768 : Shape := ⟨2, ![256, 768]⟩
abbrev S256x96x8 : Shape := ⟨3, ![256, 96, 8]⟩
abbrev S16 : Shape := ⟨1, ![16]⟩
abbrev S4 : Shape := ⟨1, ![4]⟩
abbrev S_ : Shape := ⟨0, ![]⟩
abbrev S1x16 : Shape := ⟨2, ![1, 16]⟩
abbrev S4x1 : Shape := ⟨2, ![4, 1]⟩
abbrev S4x16 : Shape := ⟨2, ![4, 16]⟩
abbrev S256x96x4 : Shape := ⟨3, ![256, 96, 4]⟩
abbrev S256x96x16 : Shape := ⟨3, ![256, 96, 16]⟩
abbrev S256x96x16x1 : Shape := ⟨4, ![256, 96, 16, 1]⟩
abbrev S256x96x1x16 : Shape := ⟨4, ![256, 96, 1, 16]⟩
abbrev S256x96x16x16 : Shape := ⟨4, ![256, 96, 16, 16]⟩
abbrev S256x96x256 : Shape := ⟨3, ![256, 96, 256]⟩
abbrev S256x1x96x256 : Shape := ⟨4, ![256, 1, 96, 256]⟩
abbrev S8x96x768x1 : Shape := ⟨4, ![8, 96, 768, 1]⟩
abbrev S1 : Shape := ⟨1, ![1]⟩
abbrev S1x1x1x1 : Shape := ⟨4, ![1, 1, 1, 1]⟩
abbrev S8x96x768 : Shape := ⟨3, ![8, 96, 768]⟩
abbrev S256x8x96x768 : Shape := ⟨4, ![256, 8, 96, 768]⟩
abbrev S256x8x768 : Shape := ⟨3, ![256, 8, 768]⟩
abbrev S8x768 : Shape := ⟨2, ![8, 768]⟩
abbrev S1x768 : Shape := ⟨2, ![1, 768]⟩

abbrev nBuf : Space → Nat
  | .hbm => 78
  | .vmem => 0
  | .smem => 0
  | _ => 0

abbrev bufTy : (tb : Table) → Fin (tcTables nBuf tb) → BufTy
  | .hbm, ⟨0, _⟩ => ⟨S4x64x768, .f32⟩
  | .hbm, ⟨1, _⟩ => ⟨S1x8x768, .f32⟩
  | .hbm, ⟨2, _⟩ => ⟨S1x8x96x768, .i32⟩
  | .hbm, ⟨3, _⟩ => ⟨S768, .f32⟩
  | .hbm, ⟨4, _⟩ => ⟨S256x768, .f32⟩
  | .hbm, ⟨5, _⟩ => ⟨S256x96x8, .f32⟩
  | .hbm, ⟨6, _⟩ => ⟨S16, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S1x16, .i32⟩
  | .hbm, ⟨15, _⟩ => ⟨S4x1, .i32⟩
  | .hbm, ⟨16, _⟩ => ⟨S4x16, .i32⟩
  | .hbm, ⟨17, _⟩ => ⟨S4x16, .i32⟩
  | .hbm, ⟨18, _⟩ => ⟨S4x16, .i32⟩
  | .hbm, ⟨19, _⟩ => ⟨S_, .i32⟩
  | .hbm, ⟨20, _⟩ => ⟨S4x16, .i32⟩
  | .hbm, ⟨21, _⟩ => ⟨S4x16, .i32⟩
  | .hbm, ⟨22, _⟩ => ⟨S_, .i32⟩
  | .hbm, ⟨23, _⟩ => ⟨S4x16, .i32⟩
  | .hbm, ⟨24, _⟩ => ⟨S4x16, .i1⟩
  | .hbm, ⟨25, _⟩ => ⟨S_, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S4x16, .f32⟩
  | .hbm, ⟨31, _⟩ => ⟨S256x96x4, .f32⟩
  | .hbm, ⟨32, _⟩ => ⟨S256x96x16, .f32⟩
  | .hbm, ⟨33, _⟩ => ⟨S256x96x4, .f32⟩
  | .hbm, ⟨34, _⟩ => ⟨S256x96x16, .f32⟩
  | .hbm, ⟨35, _⟩ => ⟨S256x96x16x1, .f32⟩
  | .hbm, ⟨36, _⟩ => ⟨S256x96x1x16, .f32⟩
  | .hbm, ⟨37, _⟩ => ⟨S256x96x16x16, .f32⟩
  | .hbm, ⟨38, _⟩ => ⟨S256x96x16x16, .f32⟩
  | .hbm, ⟨39, _⟩ => ⟨S256x96x16x16, .f32⟩
  | .hbm, ⟨40, _⟩ => ⟨S256x96x256, .f32⟩
  | .hbm, ⟨41, _⟩ => ⟨S256x1x96x256, .f32⟩
  | .hbm, ⟨42, _⟩ => ⟨S_, .i32⟩
  | .hbm, ⟨43, _⟩ => ⟨S1x8x96x768, .i32⟩
  | .hbm, ⟨44, _⟩ => ⟨S1x8x96x768, .i1⟩
  | .hbm, ⟨45, _⟩ => ⟨S_, .i32⟩
  | .hbm, ⟨46, _⟩ => ⟨S1x8x96x768, .i32⟩
  | .hbm, ⟨47, _⟩ => ⟨S1x8x96x768, .i32⟩
  | .hbm, ⟨48, _⟩ => ⟨S1x8x96x768, .i32⟩
  | .hbm, ⟨49, _⟩ => ⟨S8x96x768x1, .i32⟩
  | .hbm, ⟨50, _⟩ => ⟨S256x96x256, .f32⟩
  | .hbm, ⟨51, _⟩ => ⟨S1, .i32⟩
  | .hbm, ⟨52, _⟩ => ⟨S_, .i32⟩
  | .hbm, ⟨53, _⟩ => ⟨S8x96x768x1, .i32⟩
  | .hbm, ⟨54, _⟩ => ⟨S8x96x768x1, .i1⟩
  | .hbm, ⟨55, _⟩ => ⟨S1x1x1x1, .i32⟩
  | .hbm, ⟨56, _⟩ => ⟨S8x96x768x1, .i32⟩
  | .hbm, ⟨57, _⟩ => ⟨S8x96x768x1, .i1⟩
  | .hbm, ⟨58, _⟩ => ⟨S8x96x768x1, .i1⟩
  | .hbm, ⟨59, _⟩ => ⟨S_, .i1⟩
  | .hbm, ⟨60, _⟩ => ⟨S8x96x768, .i1⟩
  | .hbm, ⟨61, _⟩ => ⟨S256x8x96x768, .f32⟩
  | .hbm, ⟨62, _⟩ => ⟨S256x8x96x768, .i1⟩
  | .hbm, ⟨63, _⟩ => ⟨S_, .f32⟩
  | .hbm, ⟨64, _⟩ => ⟨S256x8x96x768, .f32⟩
  | .hbm, ⟨65, _⟩ => ⟨S256x8x96x768, .f32⟩
  | .hbm, ⟨66, _⟩ => ⟨S_, .f32⟩
  | .hbm, ⟨67, _⟩ => ⟨S256x8x768, .f32⟩
  | .hbm, ⟨68, _⟩ => ⟨S8x768, .f32⟩
  | .hbm, ⟨69, _⟩ => ⟨S1x8x768, .f32⟩
  | .hbm, ⟨70, _⟩ => ⟨S256x8x768, .f32⟩
  | .hbm, ⟨71, _⟩ => ⟨S256x8x768, .f32⟩
  | .hbm, ⟨72, _⟩ => ⟨S_, .f32⟩
  | .hbm, ⟨73, _⟩ => ⟨S256x768, .f32⟩
  | .hbm, ⟨74, _⟩ => ⟨S1x768, .f32⟩
  | .hbm, ⟨75, _⟩ => ⟨S256x768, .f32⟩
  | .hbm, ⟨76, _⟩ => ⟨S256x768, .f32⟩
  | .hbm, ⟨77, _⟩ => ⟨S4x64x768, .f32⟩
  | _, _ => ⟨S4x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_c_1 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_c_3 : Ref sig .tc := ⟨.hbm, 59, rfl⟩
abbrev main_call1_v13 : Ref sig .tc := ⟨.hbm, 60, rfl⟩
abbrev main_call1_v14 : Ref sig .tc := ⟨.hbm, 61, rfl⟩
abbrev main_call1_v15 : Ref sig .tc := ⟨.hbm, 62, rfl⟩
abbrev main_call1_cst : Ref sig .tc := ⟨.hbm, 63, rfl⟩
abbrev main_call1_v16 : Ref sig .tc := ⟨.hbm, 64, rfl⟩
abbrev main_v30 : Ref sig .tc := ⟨.hbm, 65, rfl⟩
abbrev main_cst_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩

abbrev nD : Nat := 1
abbrev τ : Topo := Topo.v7x

variable {F : FTy → Type} [FloatOps F]

class Facts₀ : Prop where
  shapeCasts_S4x64x768_S256x768 : S4x64x768.ShapeCasts S256x768
  shapeCasts_S256x768_S256x96x8 : S256x768.ShapeCasts S256x96x8
  bcast_S_S4 : S_.BroadcastsInDim S4 (![] : Fin 0 → Fin S4.rank)
  bcast_S16_S1x16_1 : S16.BroadcastsInDim S1x16 (![1] : Fin 1 → Fin S1x16.rank)
  bcast_S4_S4x1_0 : S4.BroadcastsInDim S4x1 (![0] : Fin 1 → Fin S4x1.rank)
  bcast_S1x16_S4x16_0_1 : S1x16.BroadcastsInDim S4x16 (![0, 1] : Fin 2 → Fin S4x16.rank)
  bcast_S4x1_S4x16_0_1 : S4x1.BroadcastsInDim S4x16 (![0, 1] : Fin 2 → Fin S4x16.rank)
  bcast_S_S4x16 : S_.BroadcastsInDim S4x16 (![] : Fin 0 → Fin S4x16.rank)
  slices_S256x96x8_S256x96x4_0_0_0 : S256x96x8.Slices ![0, 0, 0] S256x96x4
  slices_S256x96x8_S256x96x4_0_0_4 : S256x96x8.Slices ![0, 0, 4] S256x96x4
  bcast_S256x96x16_S256x96x16x1_0_1_2 : S256x96x16.BroadcastsInDim S256x96x16x1 (![0, 1, 2] : Fin 3 → Fin S256x96x16x1.rank)
  bcast_S256x96x16_S256x96x1x16_0_1_3 : S256x96x16.BroadcastsInDim S256x96x1x16 (![0, 1, 3] : Fin 3 → Fin S256x96x1x16.rank)
  bcast_S256x96x16x1_S256x96x16x16_0_1_2_3 : S256x96x16x1.BroadcastsInDim S256x96x16x16 (![0, 1, 2, 3] : Fin 4 → Fin S256x96x16x16.rank)
  bcast_S256x96x1x16_S256x96x16x16_0_1_2_3 : S256x96x1x16.BroadcastsInDim S256x96x16x16 (![0, 1, 2, 3] : Fin 4 → Fin S256x96x16x16.rank)
  shapeCasts_S256x96x16x16_S256x96x256 : S256x96x16x16.ShapeCasts S256x96x256
  bcast_S256x96x256_S256x1x96x256_0_2_3 : S256x96x256.BroadcastsInDim S256x1x96x256 (![0, 2, 3] : Fin 3 → Fin S256x1x96x256.rank)
  bcast_S_S1x8x96x768 : S_.BroadcastsInDim S1x8x96x768 (![] : Fin 0 → Fin S1x8x96x768.rank)
  shapeCasts_S1x8x96x768_S8x96x768x1 : S1x8x96x768.ShapeCasts S8x96x768x1
  shapeCasts_S256x1x96x256_S256x96x256 : S256x1x96x256.ShapeCasts S256x96x256
  bcast_S_S8x96x768x1 : S_.BroadcastsInDim S8x96x768x1 (![] : Fin 0 → Fin S8x96x768x1.rank)
  bcast_S1_S1x1x1x1_3 : S1.BroadcastsInDim S1x1x1x1 (![3] : Fin 1 → Fin S1x1x1x1.rank)
  bcast_S1x1x1x1_S8x96x768x1_0_1_2_3 : S1x1x1x1.BroadcastsInDim S8x96x768x1 (![0, 1, 2, 3] : Fin 4 → Fin S8x96x768x1.rank)
  reducesTo_S8x96x768x1_S8x96x768_d3 : S8x96x768x1.ReducesTo [3] S8x96x768
  h_S_ : 0 < S_.numel
  bcast_S8x96x768_S256x8x96x768_1_2_3 : S8x96x768.BroadcastsInDim S256x8x96x768 (![1, 2, 3] : Fin 3 → Fin S256x8x96x768.rank)
  bcast_S_S256x8x96x768 : S_.BroadcastsInDim S256x8x96x768 (![] : Fin 0 → Fin S256x8x96x768.rank)
  reducesTo_S256x8x96x768_S256x8x768_d2 : S256x8x96x768.ReducesTo [2] S256x8x768
  shapeCasts_S1x8x768_S8x768 : S1x8x768.ShapeCasts S8x768
  bcast_S8x768_S1x8x768_1_2 : S8x768.BroadcastsInDim S1x8x768 (![1, 2] : Fin 2 → Fin S1x8x768.rank)
  bcast_S1x8x768_S256x8x768_0_1_2 : S1x8x768.BroadcastsInDim S256x8x768 (![0, 1, 2] : Fin 3 → Fin S256x8x768.rank)
  reducesTo_S256x8x768_S256x768_d1 : S256x8x768.ReducesTo [1] S256x768
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  shapeCasts_S256x768_S4x64x768 : S256x768.ShapeCasts S4x64x768
  dot_S256x96x4_S4x16_S256x96x16_2_0_01_1_n_n_wf : DotDims.WF S256x96x4 S4x16 S256x96x16 [2] [0] [0, 1] [1] [] []
  gather_S256x96x256_S8x96x768x1_S256x8x96x768_0_2_1_1_2_3_25611_wf : GatherDims.WF S256x96x256 S8x96x768x1 S256x8x96x768 [0] [2] [1] [2] [1] 3 ![256, 1, 1]

variable [Facts₀]

def dot_S256x96x4_S4x16_S256x96x16_2_0_01_1_n_n : DotDims S256x96x4 S4x16 S256x96x16 where
  lhsContracting := [2]
  rhsContracting := [0]
  lhsNonContracting := [0, 1]
  rhsNonContracting := [1]
  lhsBatch := []
  rhsBatch := []
  wf := dot_S256x96x4_S4x16_S256x96x16_2_0_01_1_n_n_wf
def gather_S256x96x256_S8x96x768x1_S256x8x96x768_0_2_1_1_2_3_25611 : GatherDims S256x96x256 S8x96x768x1 S256x8x96x768 where
  offsetDims := [0]
  collapsedSliceDims := [2]
  operandBatchingDims := [1]
  startIndicesBatchingDims := [1]
  startIndexMap := [2]
  indexVectorDim := 3
  sliceSizes := ![256, 1, 1]
  wf := gather_S256x96x256_S8x96x768x1_S256x8x96x768_0_2_1_1_2_3_25611_wf

class Facts : Prop extends Facts₀ where

variable [Facts]
-- ==== Proof.Spec.lean ====
/-
  One output element of the byte-sign linear layer, written twice: as the kernel arranges it and as the
  reference arranges it.

  The layer: an input row of 768 features is read as 96 groups of 8; for each of 8 planes `k`, each group `m` and
  each output feature there is a byte, whose bit `7 - p` is the sign given to feature `p` of the group; plane `k`
  has a scale for each output feature. The output element is
      bias + Σ_k scale_k · Σ_m Σ_p (± x[8m + p])        (the sign by bit `7 - p` of the byte of (k, m)).
  The kernel folds the planes into ONE weight per input feature, `Σ_k (± scale_k)`, and contracts the row with it;
  the reference builds, for every group, the table of all 256 signed sums of its eight features, takes the entry the
  byte names, adds the groups, scales the plane, adds the planes.  Both are stated here over plain functions, so that
  the two programs' read-back values, the bit facts and the algebra between the two arrangements meet in one place.
-/
import Idealize.ShloMosaic.PureOps.Ideal
import Idealize.ShloMosaic.Lib.ValueIdx

noncomputable section

open scoped BigOperators

namespace Cert.SignBytes

open Idealize.ShloMosaic Idealize.ShloMosaic.ValueIdx

/-! ## One byte, one plane -/

/-- Bit `7 - p` of the byte in the low eight bits of the word `v`: the sign of feature `p` of a group of eight. -/
def bit (v : BitVec 32) (p : Fin 8) : Bool := v.getLsbD (7 - p.val)

/-- A plane's scale carrying a bit's sign: `s` where the bit is set, `0 - s` where it is clear. -/
def signed (s : EReal) (b : Bool) : EReal := if b then s else 0 - s

/-! ## The kernel's arrangement -/

/-- The weight of feature `p` of one group into one output feature: the eight planes' signed scales, added in
    plane order. -/
def weight (s : Fin 8 → EReal) (v : Fin 8 → BitVec 32) (p : Fin 8) : EReal :=
  signed (s 0) (bit (v 0) p) + signed (s 1) (bit (v 1) p) + signed (s 2) (bit (v 2) p) + signed (s 3) (bit (v 3) p)
    + signed (s 4) (bit (v 4) p) + signed (s 5) (bit (v 5) p) + signed (s 6) (bit (v 6) p) + signed (s 7) (bit (v 7) p)

/-- One output element as the kernel computes it: the row (`X m p` is feature `8m + p`) contracted with the
    weights, plus the bias. -/
def outK (X : Fin 96 → Fin 8 → EReal) (s : Fin 8 → EReal) (v : Fin 8 → Fin 96 → BitVec 32) (β : EReal) : EReal :=
  (∑ n : Fin 768, X ⟨n.val / 8, by have := n.isLt; omega⟩ ⟨n.val % 8, by omega⟩
      * weight s (fun k => v k ⟨n.val / 8, by have := n.isLt; omega⟩) ⟨n.val % 8, by omega⟩) + β

/-! ## The reference's arrangement -/

/-- `+1` where bit `3 - q` of the nibble `j` is set, `-1` where it is clear. -/
def pm (q : Fin 4) (j : Fin 16) : EReal := if j.val.testBit (3 - q.val) then 1 else -1

/-- The table of one group of eight features: entry `16·hi + lo` is the first four features signed by the bits of
    `hi` plus the last four signed by the bits of `lo`. -/
def table (X : Fin 8 → EReal) (j : Fin 256) : EReal :=
  (∑ q : Fin 4, X ⟨q.val, by have := q.isLt; omega⟩ * pm q ⟨j.val / 16, by have := j.isLt; omega⟩)
    + (∑ q : Fin 4, X ⟨q.val + 4, by have := q.isLt; omega⟩ * pm q ⟨j.val % 16, by omega⟩)

/-- The index the reference reads for a byte word: a negative word wraps once, by 256. -/
def wrap (v : BitVec 32) : BitVec 32 := if v.slt 0#32 then v + 256#32 else v

/-- One gathered entry: the table at the wrapped index where that lies in `[0, 255]`, and the fill (`⊥` on the
    extended reals) where it does not. -/
def taken (T : Fin 256 → EReal) (v : BitVec 32) : EReal :=
  if 0 ≤ (wrap v).toInt ∧ (wrap v).toInt ≤ 255 then T ⟨min (wrap v).toInt.toNat 255, by omega⟩ else ⊥

/-- One output element as the reference computes it: per plane the groups' gathered entries added and scaled, the
    planes added, plus the bias. -/
def outR (X : Fin 96 → Fin 8 → EReal) (s : Fin 8 → EReal) (v : Fin 8 → Fin 96 → BitVec 32) (β : EReal) : EReal :=
  (∑ k : Fin 8, (∑ m : Fin 96, taken (table (X m)) (v k m)) * s k) + β

/-! ## The arrays -/

abbrev S4x64x768 : Shape := ⟨3, ![4, 64, 768]⟩
abbrev S1x8x768 : Shape := ⟨3, ![1, 8, 768]⟩
abbrev S1x8x96x768 : Shape := ⟨4, ![1, 8, 96, 768]⟩
abbrev S768 : Shape := ⟨1, ![768]⟩

section
variable (x : S4x64x768.Idx → EReal) (sc : S1x8x768.Idx → EReal) (bn : S1x8x96x768.Idx → BitVec 32) (b : S768.Idx → EReal)

/-- The row of `x` that output element `i` reads, as 96 groups of 8. -/
def rowOf (i : S4x64x768.Idx) : Fin 96 → Fin 8 → EReal :=
  fun m p => x (ix3 (i 0) (i 1) ⟨8 * m.val + p.val, by have := m.isLt; have := p.isLt; omega⟩)
/-- The eight planes' scales of output element `i`'s feature. -/
def scaleOf (i : S4x64x768.Idx) : Fin 8 → EReal := fun k => sc (ix3 0 k (i 2))
/-- The bytes of output element `i`'s feature, by plane and group. -/
def bytesOf (i : S4x64x768.Idx) : Fin 8 → Fin 96 → BitVec 32 := fun k m => bn (ix4 0 k m (i 2))
/-- The bias of output element `i`'s feature. -/
def biasOf (i : S4x64x768.Idx) : EReal := b (ix1 (i 2))

/-- The whole result as the kernel computes it. -/
def kernelOut : S4x64x768.Idx → EReal := fun i => outK (rowOf x i) (scaleOf sc i) (bytesOf bn i) (biasOf b i)
/-- The whole result as the reference computes it. -/
def referenceOut : S4x64x768.Idx → EReal := fun i => outR (rowOf x i) (scaleOf sc i) (bytesOf bn i) (biasOf b i)
end

end Cert.SignBytes

end
-- ==== Proof.Pre.lean ====
/-
  What the precondition says of the four inputs: every entry of the three float arrays is a real number (its absolute
  value is below `+∞`), and every byte word lies in `[-256, 256)` (the signed compares against `-256` and `256`).

  The precondition is one bit: the conjunction of five "for all entries" tests, each a reduction by `and` over every
  axis of an array of one-bit results, started at 1. The conjunction is 1 exactly when each test is 1, and a test is 1
  only if every entry's bit is 1. For a float entry `v` the bit says `max v (-v) < ⊤` on the extended reals, which
  rules out `⊤` and `⊥` and leaves a real; for a byte word the two bits are the signed order against the words
  `-256` (the pattern `4294967040`) and `256`.
-/
import proofs.«407443_j10273561772174_3_alg».proof.Pre_finite_inputs
import proofs.«407443_j10273561772174_3_alg».proof.Proof.Gen.Pre_finite_inputs
import proofs.«407443_j10273561772174_3_alg».proof.Proof.Spec
import Idealize.ShloMosaic.Lib.ReduceAll

noncomputable section

namespace Cert.SignBytes

open Idealize.ShloMosaic

/-- The scalar shape has one index. -/
instance pre_scalar_idx_subsingleton : Subsingleton Cert.Pre_finite_inputs.S_.Idx := ⟨fun a b => funext fun d => d.elim0⟩

/-- A truth value packed as a one-bit word is the word 1 exactly when it is true. -/
theorem pre_ofBool_one (b : Bool) : BitVec.ofBool b = 1#1 ↔ b = true := by cases b <;> decide

/-- The pattern of `+∞` denotes `⊤`. -/
theorem pre_inf_pattern : Ideal.ofBits .f32 0x7F800000#32 = (⊤ : EReal) := by simp [Ideal.ofBits, Ideal.ieee]

/-- An extended real whose absolute value compares below `+∞` is a real number: `max v (-v)` is `⊤` at both
    infinities. -/
theorem pre_real_of_abs_lt (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  have h' : Ideal.cmp .olt (max v (-v)) (Ideal.ofBits .f32 0x7F800000#32) = 1#1 := h
  rw [pre_inf_pattern] at h'
  simp only [Ideal.cmp, pre_ofBool_one, decide_eq_true_eq] at h'
  induction v using EReal.rec with
  | bot => simp at h'
  | coe r => exact ⟨r, rfl⟩
  | top => simp at h'

/-- The precondition, read: real float entries, byte words in `[-256, 256)`. -/
theorem of_pre (x : FVec Ideal Cert.Pre_finite_inputs.S4x64x768 .f32) (sc : FVec Ideal Cert.Pre_finite_inputs.S1x8x768 .f32)
    (bn : IVec Cert.Pre_finite_inputs.S1x8x96x768 32) (b : FVec Ideal Cert.Pre_finite_inputs.S768 .f32)
    (h : Cert.Pre_finite_inputs.fn (F := Ideal) x sc bn b = fun _ => 1#1) :
    (∀ j, ∃ r : ℝ, x j = (r : EReal)) ∧ (∀ j, ∃ r : ℝ, sc j = (r : EReal)) ∧ (∀ j, ∃ r : ℝ, b j = (r : EReal))
      ∧ (∀ j, -256 ≤ (bn j).toInt ∧ (bn j).toInt < 256) := by
  -- the one bit of the result, as the conjunction of the five tests
  have e := congrFun h ValueIdx.ix0
  unfold Cert.Pre_finite_inputs.fn Cert.Pre_finite_inputs.fn_part1 at e
  dsimp only [andi] at e
  simp only [IntOp.andi_eq_one] at e
  obtain ⟨⟨⟨⟨hx, hs⟩, hb⟩, hge⟩, hlt⟩ := e
  -- the two bounds as integers
  have hlo : (4294967040#32 : BitVec 32).toInt = -256 := by decide
  have hhi : (256#32 : BitVec 32).toInt = 256 := by decide
  -- each test holds at every entry; a broadcast scalar reads the scalar everywhere
  refine ⟨fun j => ?_, fun j => ?_, fun j => ?_, fun j => ⟨?_, ?_⟩⟩
  · exact pre_real_of_abs_lt _ (Host.reduce_andi_all _ _ _ _ _ hx j)
  · exact pre_real_of_abs_lt _ (Host.reduce_andi_all _ _ _ _ _ hs j)
  · exact pre_real_of_abs_lt _ (Host.reduce_andi_all _ _ _ _ _ hb j)
  · have c : (4294967040#32 : BitVec 32).toInt ≤ (bn j).toInt := IntOp.cmpi_sge.1 (Host.reduce_andi_all _ _ _ _ _ hge j)
    omega
  · have c : (bn j).toInt < (256#32 : BitVec 32).toInt := IntOp.cmpi_slt.1 (Host.reduce_andi_all _ _ _ _ _ hlt j)
    omega

end Cert.SignBytes

end
-- ==== Proof.Bits.lean ====
/-
  One gathered table entry is the signed sum of its group's eight features.

  For a byte word `v` in `[-256, 256)` the index read is `w = v` or `v + 256`, a number in `[0, 255]` with the same low
  eight bits as `v`.  The table's entry `w = 16·hi + lo` signs features 0..3 by bits 3..0 of `hi` and features 4..7 by
  bits 3..0 of `lo`; bit `3 - q` of `hi` is bit `7 - q` of `w`, and bit `3 - q` of `lo` is bit `7 - (q + 4)` of `w`.  So the
  entry is `Σ_p ± X p`, the sign of feature `p` by bit `7 - p` of `v`.

  The road: a word in `[-256, 256)` is the 32-bit word of `n - 256` for exactly one `n < 512`, so the range fact and
  the eight bit facts are a finite statement over `n < 512` and `q < 4`, checked case by case (`bits_closed`).  The sum
  over eight features is the sum over the first four plus the sum over the last four (`sum_eight_split`), which is the
  shape of a table entry; the two halves then agree term by term.
-/
import proofs.«407443_j10273561772174_3_alg».proof.Proof.Spec
import Mathlib.Algebra.BigOperators.Fin

noncomputable section

open scoped BigOperators

namespace Cert.SignBytes

/-- The bit facts, for every word of `[-256, 256)` written as the 32-bit word of `n - 256` with `n < 512`: the wrapped
    index lies in `[0, 255]`; bit `3 - q` of its high nibble is bit `7 - q` of the word, and bit `3 - q` of its low
    nibble is bit `7 - (q + 4)` of the word.  A finite statement: 512 words, 4 positions each. -/
theorem bits_closed : ∀ n : Fin 512,
    (0 ≤ (wrap (BitVec.ofInt 32 ((n.val : Int) - 256))).toInt ∧ (wrap (BitVec.ofInt 32 ((n.val : Int) - 256))).toInt ≤ 255) ∧
    ∀ q : Fin 4,
      ((min (wrap (BitVec.ofInt 32 ((n.val : Int) - 256))).toInt.toNat 255) / 16).testBit (3 - q.val)
          = (BitVec.ofInt 32 ((n.val : Int) - 256)).getLsbD (7 - q.val) ∧
      ((min (wrap (BitVec.ofInt 32 ((n.val : Int) - 256))).toInt.toNat 255) % 16).testBit (3 - q.val)
          = (BitVec.ofInt 32 ((n.val : Int) - 256)).getLsbD (7 - (q.val + 4)) := by
  decide +kernel

/-- Eight terms are the first four plus the last four. -/
theorem sum_eight_split (f : Fin 8 → EReal) :
    ∑ p : Fin 8, f p
      = (∑ q : Fin 4, f ⟨q.val, by have := q.isLt; omega⟩) + (∑ q : Fin 4, f ⟨q.val + 4, by have := q.isLt; omega⟩) := by
  rw [Fin.sum_univ_eight, Fin.sum_univ_four, Fin.sum_univ_four]
  simp only [add_assoc]
  rfl

/-- The sign a nibble gives to position `q`, read through any Boolean equal to its bit `3 - q`. -/
theorem pm_eq (q : Fin 4) (j : Fin 16) (b : Bool) (h : j.val.testBit (3 - q.val) = b) :
    pm q j = if b then (1 : EReal) else -1 := by
  subst h; rfl

/-- The gathered entry of a byte word in `[-256, 256)`: each feature of the group signed by its bit of the byte. -/
theorem taken_table (X : Fin 8 → EReal) (v : BitVec 32) (hv : -256 ≤ v.toInt ∧ v.toInt < 256) :
    taken (table X) v = ∑ p : Fin 8, X p * (if bit v p then (1 : EReal) else -1) := by
  -- `v` is the 32-bit word of `n - 256` with `n = v.toInt + 256 < 512`: both have the same signed value.
  obtain ⟨n, rfl⟩ : ∃ n : Fin 512, v = BitVec.ofInt 32 ((n.val : Int) - 256) := by
    refine ⟨⟨(v.toInt + 256).toNat, by omega⟩, ?_⟩
    have h1 : (((v.toInt + 256).toNat : Nat) : Int) - 256 = v.toInt := by omega
    apply BitVec.eq_of_toInt_eq
    dsimp only
    rw [h1, BitVec.toInt_ofInt_eq_self (by decide) (by norm_num; omega) (by norm_num; omega)]
  have h := bits_closed n
  -- the wrapped index is in range, so the entry is the table's; split the eight features into two fours
  rw [sum_eight_split]
  unfold taken
  rw [if_pos h.1]
  unfold table
  congr 1
  · -- features 0..3: signed by the high nibble's bits, which are bits 7..4 of the word
    apply Finset.sum_congr rfl
    intro q _
    rw [pm_eq q _ _ (h.2 q).1]
    rfl
  · -- features 4..7: signed by the low nibble's bits, which are bits 3..0 of the word
    apply Finset.sum_congr rfl
    intro q _
    rw [pm_eq q _ _ (h.2 q).2]
    rfl

end Cert.SignBytes

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.Bridge.lean ====
/-
  The two arrangements of one output element agree on real inputs and byte words in `[-256, 256)`.

  With `ε(k, m, p) = ±1` by bit `7 - p` of the byte of plane `k` and group `m`:
      reference:  Σ_k (Σ_m Σ_p X m p · ε(k, m, p)) · s_k  + β
      kernel:     Σ_m Σ_p X m p · (Σ_k s_k · ε(k, m, p))  + β
  which are one number by distributing the product over the finite sums and exchanging the order of summation.  On the
  extended reals that needs every entry to be a real number; the sums are then coercions of real sums.

  The steps: a signed scale is the coercion of `s · ε`; a weight is the coercion of `Σ_k s_k · ε`; a gathered table entry is
  the coercion of `Σ_p X p · ε`; the sum over the 768 features, feature `n` read as (n / 8, n % 8), is the sum over 96
  groups of 8; both sides are then coercions of real expressions, equal over ℝ.
-/
import proofs.«407443_j10273561772174_3_alg».proof.Proof.Spec
import proofs.«407443_j10273561772174_3_alg».proof.Proof.Bits
import proofs.«407443_j10273561772174_3_alg».proof.Proof.LibPropagate

noncomputable section

open scoped BigOperators

namespace Cert.SignBytes

open Cert.Lib.Propagate

/-- The real sign `±1` that bit `7 - p` of the byte word `v` gives to feature `p`. -/
def sgn (v : BitVec 32) (p : Fin 8) : ℝ := if bit v p then 1 else -1

/-- A real scale carrying a bit's sign is the coercion of the scale times `±1`. -/
theorem signed_coe (s : ℝ) (b : Bool) :
    signed ((s : ℝ) : EReal) b = ((s * (if b then (1 : ℝ) else -1) : ℝ) : EReal) := by
  cases b
  · show (0 : EReal) - (s : EReal) = ((s * (if false then (1 : ℝ) else -1) : ℝ) : EReal)
    rw [← EReal.coe_zero, ← EReal.coe_sub]
    congr 1
    simp
  · show ((s : ℝ) : EReal) = ((s * (if true then (1 : ℝ) else -1) : ℝ) : EReal)
    congr 1
    simp

/-- The weight of a feature over real scales is the coercion of the real sum of the signed scales. -/
theorem weight_coe (s : Fin 8 → ℝ) (w : Fin 8 → BitVec 32) (p : Fin 8) :
    weight (fun k => ((s k : ℝ) : EReal)) w p = ((∑ k : Fin 8, s k * sgn (w k) p : ℝ) : EReal) := by
  unfold weight
  simp only [signed_coe, ← EReal.coe_add]
  congr 1
  rw [Fin.sum_univ_eight]
  rfl

/-- A gathered table entry over real features is the coercion of the real signed sum of the group. -/
theorem taken_coe (x : Fin 8 → ℝ) (v : BitVec 32) (hv : -256 ≤ v.toInt ∧ v.toInt < 256) :
    taken (table (fun p => ((x p : ℝ) : EReal))) v = ((∑ p : Fin 8, x p * sgn v p : ℝ) : EReal) := by
  rw [taken_table _ v hv, coe_finsetSum]
  refine Finset.sum_congr rfl fun p _ => ?_
  unfold sgn
  by_cases hb : bit v p = true
  · rw [if_pos hb, if_pos hb, EReal.coe_mul, EReal.coe_one]
  · rw [if_neg hb, if_neg hb, EReal.coe_mul, EReal.coe_neg, EReal.coe_one]

/-- The sum over 768 features, feature `n` read as entry `(n / 8, n % 8)`, is the sum over 96 groups of 8 entries. -/
theorem sum_768 {M : Type} [AddCommMonoid M] (F : Fin 96 → Fin 8 → M) :
    (∑ n : Fin 768, F ⟨n.val / 8, by have := n.isLt; omega⟩ ⟨n.val % 8, by omega⟩)
      = ∑ m : Fin 96, ∑ p : Fin 8, F m p := by
  let g : ℕ → M := fun n =>
    if h : n < 768 then F ⟨n / 8, by omega⟩ ⟨n % 8, by omega⟩ else 0
  have h1 : (∑ n : Fin 768, F ⟨n.val / 8, by have := n.isLt; omega⟩ ⟨n.val % 8, by omega⟩)
      = ∑ n : Fin (96 * 8), g n.val := by
    show _ = ∑ n : Fin 768, g n.val
    refine Finset.sum_congr rfl fun n _ => ?_
    show _ = dite _ _ _
    rw [dif_pos n.isLt]
  rw [h1, ← sum_blocks 96 8 g]
  refine Finset.sum_congr rfl fun m _ => Finset.sum_congr rfl fun p _ => ?_
  have hm := m.isLt
  have hp := p.isLt
  have hlt : m.val * 8 + p.val < 768 := by omega
  show dite _ _ _ = _
  rw [dif_pos hlt]
  have e1 : (⟨(m.val * 8 + p.val) / 8, by omega⟩ : Fin 96) = m := Fin.ext (by show (m.val * 8 + p.val) / 8 = m.val; omega)
  have e2 : (⟨(m.val * 8 + p.val) % 8, by omega⟩ : Fin 8) = p := Fin.ext (by show (m.val * 8 + p.val) % 8 = p.val; omega)
  rw [e1, e2]

/-- Over ℝ: contracting the row with the folded weights equals scaling each plane's signed sum and adding the planes. -/
theorem fold_real (X : Fin 96 → Fin 8 → ℝ) (s : Fin 8 → ℝ) (e : Fin 8 → Fin 96 → Fin 8 → ℝ) :
    (∑ m : Fin 96, ∑ p : Fin 8, X m p * ∑ k : Fin 8, s k * e k m p)
      = ∑ k : Fin 8, (∑ m : Fin 96, ∑ p : Fin 8, X m p * e k m p) * s k := by
  have hr : (∑ k : Fin 8, (∑ m : Fin 96, ∑ p : Fin 8, X m p * e k m p) * s k)
      = ∑ k : Fin 8, ∑ m : Fin 96, ∑ p : Fin 8, X m p * (s k * e k m p) := by
    refine Finset.sum_congr rfl fun k _ => ?_
    rw [Finset.sum_mul]
    refine Finset.sum_congr rfl fun m _ => ?_
    rw [Finset.sum_mul]
    refine Finset.sum_congr rfl fun p _ => ?_
    ring
  have hl : (∑ m : Fin 96, ∑ p : Fin 8, X m p * ∑ k : Fin 8, s k * e k m p)
      = ∑ m : Fin 96, ∑ p : Fin 8, ∑ k : Fin 8, X m p * (s k * e k m p) :=
    Finset.sum_congr rfl fun m _ => Finset.sum_congr rfl fun p _ => Finset.mul_sum _ _ _
  have hc : (∑ k : Fin 8, ∑ m : Fin 96, ∑ p : Fin 8, X m p * (s k * e k m p))
      = ∑ m : Fin 96, ∑ p : Fin 8, ∑ k : Fin 8, X m p * (s k * e k m p) :=
    Finset.sum_comm.trans (Finset.sum_congr rfl fun m _ => Finset.sum_comm)
  rw [hl, hr, hc]

/-- One output element: the kernel's arrangement is the reference's, on real entries. -/
theorem outK_eq_outR (X : Fin 96 → Fin 8 → ℝ) (s : Fin 8 → ℝ) (β : ℝ) (v : Fin 8 → Fin 96 → BitVec 32)
    (hv : ∀ k m, -256 ≤ (v k m).toInt ∧ (v k m).toInt < 256) :
    outK (fun m p => ((X m p : ℝ) : EReal)) (fun k => ((s k : ℝ) : EReal)) v ((β : ℝ) : EReal)
      = outR (fun m p => ((X m p : ℝ) : EReal)) (fun k => ((s k : ℝ) : EReal)) v ((β : ℝ) : EReal) := by
  have hK : outK (fun m p => ((X m p : ℝ) : EReal)) (fun k => ((s k : ℝ) : EReal)) v ((β : ℝ) : EReal)
      = (((∑ m : Fin 96, ∑ p : Fin 8, X m p * ∑ k : Fin 8, s k * sgn (v k m) p) + β : ℝ) : EReal) := by
    unfold outK
    rw [sum_768 (fun m p => ((X m p : ℝ) : EReal) * weight (fun k => ((s k : ℝ) : EReal)) (fun k => v k m) p)]
    simp only [weight_coe, ← EReal.coe_mul, ← coe_finsetSum, ← EReal.coe_add]
  have hR : outR (fun m p => ((X m p : ℝ) : EReal)) (fun k => ((s k : ℝ) : EReal)) v ((β : ℝ) : EReal)
      = (((∑ k : Fin 8, (∑ m : Fin 96, ∑ p : Fin 8, X m p * sgn (v k m) p) * s k) + β : ℝ) : EReal) := by
    unfold outR
    have ht : ∀ k m, taken (table (fun p => ((X m p : ℝ) : EReal))) (v k m)
        = ((∑ p : Fin 8, X m p * sgn (v k m) p : ℝ) : EReal) := fun k m => taken_coe (X m) (v k m) (hv k m)
    simp only [ht, ← EReal.coe_mul, ← coe_finsetSum, ← EReal.coe_add]
  rw [hK, hR, fold_real X s (fun k m p => sgn (v k m) p)]

/-- The whole result: the kernel's array is the reference's, on finite float inputs and bytes in `[-256, 256)`. -/
theorem kernelOut_eq_referenceOut (x : S4x64x768.Idx → EReal) (sc : S1x8x768.Idx → EReal)
    (bn : S1x8x96x768.Idx → BitVec 32) (b : S768.Idx → EReal)
    (hx : ∀ j, ∃ r : ℝ, x j = (r : EReal)) (hs : ∀ j, ∃ r : ℝ, sc j = (r : EReal)) (hb : ∀ j, ∃ r : ℝ, b j = (r : EReal))
    (hv : ∀ j, -256 ≤ (bn j).toInt ∧ (bn j).toInt < 256) :
    kernelOut x sc bn b = referenceOut x sc bn b := by
  choose xr hxr using hx
  choose sr hsr using hs
  choose br hbr using hb
  funext i
  have h1 : rowOf x i = fun m p => ((xr (Idealize.ShloMosaic.ValueIdx.ix3 (i 0) (i 1)
      ⟨8 * m.val + p.val, by have := m.isLt; have := p.isLt; omega⟩) : ℝ) : EReal) := by
    funext m p
    exact hxr _
  have h2 : scaleOf sc i = fun k => ((sr (Idealize.ShloMosaic.ValueIdx.ix3 0 k (i 2)) : ℝ) : EReal) := by
    funext k
    exact hsr _
  have h3 : biasOf b i = ((br (Idealize.ShloMosaic.ValueIdx.ix1 (i 2)) : ℝ) : EReal) := hbr _
  show outK (rowOf x i) (scaleOf sc i) (bytesOf bn i) (biasOf b i)
    = outR (rowOf x i) (scaleOf sc i) (bytesOf bn i) (biasOf b i)
  rw [h1, h2, h3]
  exact outK_eq_outR _ _ _ _ (fun k m => hv _)

end Cert.SignBytes

end
-- ==== Proof.KernelPayload.lean ====
/-
  What the kernel's body stores, read at one element of the output block.

  The block is `x · W + bias`: row `r` of the staged `x` against column `f` of the weights the body builds from the
  staged bytes and scales.  `W[8m + p, f]` adds, plane by plane, the plane's scale at `f` where bit `7 - p` of the byte
  of (plane, group `m`, `f`) is set and `0 -` that scale where it is clear; the body tests the bit by shifting the
  byte's low eight bits left by `24 + p` and asking whether the word is negative.

  The road: the bit test on one word (the shift by `24 + p` carries bit `7 - p` to the sign position); each layout
  operation of the body read at coordinates; one plane's term at `(m, p, f)`; the eight planes added and recast from
  `[96, 8, 384]` to `[768, 384]`, row `8m + p`; the loaded planes and rows as entries of the staged blocks; the product
  as a sum over the 768 features; and the two arrangements of that sum, by `n = 8 · (n / 8) + n % 8`.
-/
import proofs.«407443_j10273561772174_3_alg».proof.Proof.Gen.KernelIdeal.Frame
import proofs.«407443_j10273561772174_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Cert.SignBytes Idealize.ShloMosaic Idealize.ShloMosaic.ValueIdx

/-! ## The bit test -/

theorem ofBool_eq_one_iff (b : Bool) : BitVec.ofBool b = 1#1 ↔ b = true := by cases b <;> decide

/-- The low eight bits of `v` shifted left by `24 + p` give a negative word exactly when bit `7 - p` of `v` is set:
    the shift carries that bit to the sign position, and every `v` has its higher bits masked off first. -/
theorem slt_shift_iff (v : BitVec 32) (p : Fin 8) :
    IntOp.cmpi .slt (IntOp.shli .vector (IntOp.andi v 255#32) (IntOp.addi 24#32 (BitVec.ofNat 32 p.val))) 0#32 = 1#1
      ↔ bit v p = true := by
  fin_cases p <;>
    simp [IntOp.cmpi, IntOp.shli, IntOp.andi, IntOp.addi, bit, BitVec.slt_zero_eq_msb, BitVec.msb_eq_getLsbD_last,
      BitVec.getLsbD_shiftLeft, ofBool_eq_one_iff]

/-! ## Layout operations of the body at coordinates -/

section Layout
variable {α : Type}

theorem bcast_group (x : S96x1x384.Idx → α) (h : S96x1x384.Broadcasts S96x8x384) (m : Fin 96) (p : Fin 8) (f : Fin 384) :
    broadcastTo S96x8x384 x h (ix3 m p f) = x (ix3 m (0 : Fin 1) f) :=
  broadcastTo_apply x h (ix3 m p f) (ix3 m (0 : Fin 1) f) fun a => match a with
    | ⟨0, _⟩ => rfl
    | ⟨1, _⟩ => rfl
    | ⟨2, _⟩ => rfl

theorem bcast_lane (x : S1x8x1.Idx → α) (h : S1x8x1.Broadcasts S96x8x384) (m : Fin 96) (p : Fin 8) (f : Fin 384) :
    broadcastTo S96x8x384 x h (ix3 m p f) = x (ix3 (0 : Fin 1) p (0 : Fin 1)) :=
  broadcastTo_apply x h (ix3 m p f) (ix3 (0 : Fin 1) p (0 : Fin 1)) fun a => match a with
    | ⟨0, _⟩ => rfl
    | ⟨1, _⟩ => rfl
    | ⟨2, _⟩ => rfl

theorem bcast_feature (x : S1x1x384.Idx → α) (h : S1x1x384.Broadcasts S96x8x384) (m : Fin 96) (p : Fin 8) (f : Fin 384) :
    broadcastTo S96x8x384 x h (ix3 m p f) = x (ix3 (0 : Fin 1) (0 : Fin 1) f) :=
  broadcastTo_apply x h (ix3 m p f) (ix3 (0 : Fin 1) (0 : Fin 1) f) fun a => match a with
    | ⟨0, _⟩ => rfl
    | ⟨1, _⟩ => rfl
    | ⟨2, _⟩ => rfl

theorem cast_group (x : S96x384.Idx → α) (h : S96x384.ShapeCasts S96x1x384) (m : Fin 96) (u : Fin 1) (f : Fin 384) :
    shapeCast S96x1x384 x h (ix3 m u f) = x (ix2 m f) :=
  shapeCast_apply x h _ _ (by
    have hu : u.val = 0 := by omega
    rw [Shape.rowMajor_val_three, Shape.rowMajor_val_two]
    show m.val * 384 + f.val = (m.val * 1 + u.val) * 384 + f.val
    rw [hu]; omega)

theorem cast_feature (x : S384.Idx → α) (h : S384.ShapeCasts S1x1x384) (u u' : Fin 1) (f : Fin 384) :
    shapeCast S1x1x384 x h (ix3 u u' f) = x (ix1 f) :=
  shapeCast_apply x h _ _ (by
    have hu : u.val = 0 := by omega
    have hu' : u'.val = 0 := by omega
    rw [Shape.rowMajor_val_three, Shape.rowMajor_val_one]
    show f.val = (u.val * 1 + u'.val) * 384 + f.val
    rw [hu, hu']; omega)

theorem cast_rows (x : S96x8x384.Idx → α) (h : S96x8x384.ShapeCasts S768x384) (n : Fin 768) (m : Fin 96) (p : Fin 8)
    (hn : n.val = 8 * m.val + p.val) (f : Fin 384) :
    shapeCast S768x384 x h (ix2 n f) = x (ix3 m p f) :=
  shapeCast_apply x h _ _ (by
    rw [Shape.rowMajor_val_three, Shape.rowMajor_val_two]
    show (m.val * 8 + p.val) * 384 + f.val = n.val * 384 + f.val
    rw [hn]; omega)

end Layout

/-! ## One plane's term -/

/-- The shift amounts: `24 + p` at coordinate `p` of the lane axis. -/
theorem k0_pay2_apply (u : Fin 1) (p : Fin 8) (w : Fin 1) :
    k0_pay2 (ix3 u p w) = IntOp.addi 24#32 (BitVec.ofNat 32 p.val) := by
  unfold k0_pay2
  show IntOp.addi 24#32 (iota .tc S1x8x1 32 [1] iota_S1x8x1_d1_w32 (ix3 u p w)) = _
  rw [iota_single_apply]

/-- A plane's bit test at `(m, p, f)`: on the byte of group `m` and feature `f`, shifted by `24 + p`. -/
theorem k0_pay5_apply (b : Vec Ideal S1x96x384 .i32) (m : Fin 96) (p : Fin 8) (f : Fin 384) :
    k0_pay5 b (ix3 m p f)
      = IntOp.cmpi .slt (IntOp.shli .vector (IntOp.andi (b (ix3 (0 : Fin 1) m f)) 255#32) (IntOp.addi 24#32 (BitVec.ofNat 32 p.val))) 0#32 := by
  unfold k0_pay5
  show IntOp.cmpi .slt (IntOp.shli .vector
      (broadcastTo S96x8x384 (andi (shapeCast S96x1x384 (shapeCast S96x384 b shapeCasts_S1x96x384_S96x384) shapeCasts_S96x384_S96x1x384)
        (broadcast S96x1x384 255#32)) broadcasts_S96x1x384_S96x8x384 (ix3 m p f))
      (broadcastTo S96x8x384 k0_pay2 broadcasts_S1x8x1_S96x8x384 (ix3 m p f))) 0#32 = _
  rw [bcast_group, bcast_lane, k0_pay2_apply]
  show IntOp.cmpi .slt (IntOp.shli .vector (IntOp.andi
      (shapeCast S96x1x384 (shapeCast S96x384 b shapeCasts_S1x96x384_S96x384) shapeCasts_S96x384_S96x1x384 (ix3 m (0 : Fin 1) f)) 255#32) _) 0#32 = _
  rw [cast_group, shapeCast_1ab_ab_apply]

/-- A plane's scale at `(m, p, f)`: the scale of feature `f`. -/
theorem k0_pay6_apply (s : Vec Ideal S1x384 .f32) (m : Fin 96) (p : Fin 8) (f : Fin 384) :
    k0_pay6 s (ix3 m p f) = s (ix2 (0 : Fin 1) f) := by
  unfold k0_pay6 k0_pay4
  show broadcastTo S96x8x384 (shapeCast S1x1x384 (shapeCast S1x1x384 (shapeCast S384 s shapeCasts_S1x384_S384) shapeCasts_S384_S1x1x384)
      shapeCasts_S1x1x384_S1x1x384) broadcasts_S1x1x384_S96x8x384 (ix3 m p f) = _
  rw [bcast_feature, shapeCast_self, cast_feature, shapeCast_1a_a_apply]

/-- A plane's negated scale at `(m, p, f)`: `0 -` the scale of feature `f`. -/
theorem k0_pay7_apply (s : Vec Ideal S1x384 .f32) (m : Fin 96) (p : Fin 8) (f : Fin 384) :
    k0_pay7 s (ix3 m p f) = 0 - s (ix2 (0 : Fin 1) f) := by
  unfold k0_pay7 k0_pay4
  show broadcastTo S96x8x384 (shapeCast S1x1x384
      (subf (broadcast S1x1x384 (Scalar.ofBits (F := Ideal) .f32 0x00000000#32))
        (shapeCast S1x1x384 (shapeCast S384 s shapeCasts_S1x384_S384) shapeCasts_S384_S1x1x384))
      shapeCasts_S1x1x384_S1x1x384) broadcasts_S1x1x384_S96x8x384 (ix3 m p f) = _
  rw [bcast_feature, shapeCast_self]
  show Ideal.ofBits .f32 0x00000000#32
      - shapeCast S1x1x384 (shapeCast S384 s shapeCasts_S1x384_S384) shapeCasts_S384_S1x1x384 (ix3 (0 : Fin 1) (0 : Fin 1) f) = _
  rw [cast_feature, shapeCast_1a_a_apply, Ideal.ofBits_zero_f32]

theorem k0_pay3_eq (b : Vec Ideal S1x96x384 .i32) (s : Vec Ideal S1x384 .f32) :
    k0_pay3 b s = select (k0_pay5 b) (k0_pay6 s) (k0_pay7 s) := rfl

/-- One plane's term at `(m, p, f)`: the plane's scale at `f`, signed by bit `7 - p` of the byte of group `m`. -/
theorem plane_apply (b : Vec Ideal S1x96x384 .i32) (s : Vec Ideal S1x384 .f32) (m : Fin 96) (p : Fin 8) (f : Fin 384) :
    k0_pay3 b s (ix3 m p f) = signed (s (ix2 (0 : Fin 1) f)) (bit (b (ix3 (0 : Fin 1) m f)) p) := by
  rw [k0_pay3_eq, select_apply, k0_pay5_apply, k0_pay6_apply, k0_pay7_apply]
  unfold Scalar.select signed
  by_cases hb : bit (b (ix3 (0 : Fin 1) m f)) p = true
  · rw [if_pos (show _ = (1 : BitVec 1) from (slt_shift_iff _ _).mpr hb), if_pos hb]
  · rw [if_neg (show ¬ _ = (1 : BitVec 1) from fun h => hb ((slt_shift_iff _ _).mp h)), if_neg hb]

theorem k0_pay8_eq (v22 : FVec Ideal S96x8x384 .f32) (v35 : IVec S96x8x384 1) (v39 v41 : FVec Ideal S96x8x384 .f32)
    (b2 : Vec Ideal S1x96x384 .i32) (s2 : Vec Ideal S1x384 .f32) (b3 : Vec Ideal S1x96x384 .i32) (s3 : Vec Ideal S1x384 .f32) :
    k0_pay8 k0_pay2 v22 v35 v39 v41 b2 s2 b3 s3 = addf (addf (addf v22 (select v35 v39 v41)) (k0_pay3 b2 s2)) (k0_pay3 b3 s3) := rfl

theorem k0_pay9_eq (v85 : FVec Ideal S96x8x384 .f32)
    (b4 : Vec Ideal S1x96x384 .i32) (s4 : Vec Ideal S1x384 .f32) (b5 : Vec Ideal S1x96x384 .i32) (s5 : Vec Ideal S1x384 .f32) :
    k0_pay9 k0_pay2 v85 b4 s4 b5 s5 = addf (addf v85 (k0_pay3 b4 s4)) (k0_pay3 b5 s5) := rfl

theorem k0_pay10_eq (v127 : FVec Ideal S96x8x384 .f32)
    (b6 : Vec Ideal S1x96x384 .i32) (s6 : Vec Ideal S1x384 .f32) (b7 : Vec Ideal S1x96x384 .i32) (s7 : Vec Ideal S1x384 .f32) :
    k0_pay10 k0_pay2 v127 b6 s6 b7 s7
      = shapeCast S768x384 (addf (addf v127 (k0_pay3 b6 s6)) (k0_pay3 b7 s7)) shapeCasts_S96x8x384_S768x384 := rfl

/-! ## The eight planes added -/

/-- The accumulated weights at row `n = 8m + p` and column `f`, over the eight loaded planes and rows of scales:
    the planes' signed scales added in plane order. -/
theorem acc_apply (b0 b1 b2 b3 b4 b5 b6 b7 : Vec Ideal S1x96x384 .i32) (s0 s1 s2 s3 s4 s5 s6 s7 : Vec Ideal S1x384 .f32)
    (n : Fin 768) (m : Fin 96) (p : Fin 8) (hn : n.val = 8 * m.val + p.val) (f : Fin 384) :
    k0_pay10 k0_pay2 (k0_pay9 k0_pay2 (k0_pay8 k0_pay2 (k0_pay3 b0 s0) (k0_pay5 b1) (k0_pay6 s1) (k0_pay7 s1) b2 s2 b3 s3)
        b4 s4 b5 s5) b6 s6 b7 s7 (ix2 n f)
      = signed (s0 (ix2 (0 : Fin 1) f)) (bit (b0 (ix3 (0 : Fin 1) m f)) p) + signed (s1 (ix2 (0 : Fin 1) f)) (bit (b1 (ix3 (0 : Fin 1) m f)) p)
        + signed (s2 (ix2 (0 : Fin 1) f)) (bit (b2 (ix3 (0 : Fin 1) m f)) p) + signed (s3 (ix2 (0 : Fin 1) f)) (bit (b3 (ix3 (0 : Fin 1) m f)) p)
        + signed (s4 (ix2 (0 : Fin 1) f)) (bit (b4 (ix3 (0 : Fin 1) m f)) p) + signed (s5 (ix2 (0 : Fin 1) f)) (bit (b5 (ix3 (0 : Fin 1) m f)) p)
        + signed (s6 (ix2 (0 : Fin 1) f)) (bit (b6 (ix3 (0 : Fin 1) m f)) p) + signed (s7 (ix2 (0 : Fin 1) f)) (bit (b7 (ix3 (0 : Fin 1) m f)) p) := by
  rw [k0_pay10_eq, k0_pay9_eq, k0_pay8_eq, ← k0_pay3_eq, cast_rows _ _ n m p hn f]
  simp only [addf_apply, plane_apply]

/-! ## The loaded planes and rows -/

/-- Plane `k` of the bytes block, loaded, read at `(0, m, f)`: the block at `(k, m, f)`. -/
theorem ld_plane (x1 : Vec Ideal S8x96x384 .i32) (off : Fin 3 → Nat) (inb : ∀ a, off a + S1x96x384.size a ≤ S8x96x384.size a)
    (k : Fin 8) (h0 : off 0 = k.val) (h1 : off 1 = 0) (h2 : off 2 = 0) (m : Fin 96) (f : Fin 384) :
    View.ld x1 (Rect.unit (s := S8x96x384) off S1x96x384.size inb) (ix3 (0 : Fin 1) m f) = x1 (ix3 k m f) := by
  show x1 _ = x1 _
  refine congrArg x1 (funext fun a => Fin.ext ?_)
  match a with
  | ⟨0, _⟩ => show off 0 + 1 * 0 = k.val; omega
  | ⟨1, _⟩ => show off 1 + 1 * m.val = m.val; omega
  | ⟨2, _⟩ => show off 2 + 1 * f.val = f.val; omega

/-- Row `k` of the scales block, loaded, read at `(0, f)`: the block at `(k, f)`. -/
theorem ld_row (x2 : Vec Ideal S8x384 .f32) (off : Fin 2 → Nat) (inb : ∀ a, off a + S1x384.size a ≤ S8x384.size a)
    (k : Fin 8) (h0 : off 0 = k.val) (h1 : off 1 = 0) (f : Fin 384) :
    View.ld x2 (Rect.unit (s := S8x384) off S1x384.size inb) (ix2 (0 : Fin 1) f) = x2 (ix2 k f) := by
  show x2 _ = x2 _
  refine congrArg x2 (funext fun a => Fin.ext ?_)
  match a with
  | ⟨0, _⟩ => show off 0 + 1 * 0 = k.val; omega
  | ⟨1, _⟩ => show off 1 + 1 * f.val = f.val; omega

/-- The weights the body builds from the staged bytes and scales. -/
abbrev weights (x1 : Vec Ideal S8x96x384 .i32) (x2 : Vec Ideal S8x384 .f32) : FVec Ideal S768x384 .f32 :=
  k0_pay10 k0_pay2 (k0_pay9 k0_pay2 (k0_pay8 k0_pay2 (k0_pay3 (View.ld x1 r0_0) (View.ld x2 r0_1)) (k0_pay5 (View.ld x1 r0_2)) (k0_pay6 (View.ld x2 r0_3)) (k0_pay7 (View.ld x2 r0_3)) (View.ld x1 r0_4) (View.ld x2 r0_5) (View.ld x1 r0_6) (View.ld x2 r0_7)) (View.ld x1 r0_8) (View.ld x2 r0_9) (View.ld x1 r0_10) (View.ld x2 r0_11)) (View.ld x1 r0_12) (View.ld x2 r0_13) (View.ld x1 r0_14) (View.ld x2 r0_15)

/-- The weight at row `n = 8m + p` and column `f`: the specification's, over the staged bytes and scales. -/
theorem weights_apply (x1 : Vec Ideal S8x96x384 .i32) (x2 : Vec Ideal S8x384 .f32)
    (n : Fin 768) (m : Fin 96) (p : Fin 8) (hn : n.val = 8 * m.val + p.val) (f : Fin 384) :
    weights x1 x2 (ix2 n f) = weight (fun k => x2 (ix2 k f)) (fun k => x1 (ix3 k m f)) p := by
  refine (acc_apply (View.ld x1 r0_0) (View.ld x1 r0_2) (View.ld x1 r0_4) (View.ld x1 r0_6) (View.ld x1 r0_8) (View.ld x1 r0_10)
    (View.ld x1 r0_12) (View.ld x1 r0_14) (View.ld x2 r0_1) (View.ld x2 r0_3) (View.ld x2 r0_5) (View.ld x2 r0_7) (View.ld x2 r0_9)
    (View.ld x2 r0_11) (View.ld x2 r0_13) (View.ld x2 r0_15) n m p hn f).trans ?_
  rw [ld_plane x1 ![0, 0, 0] inb_S8x96x384_S1x96x384_0_0_0 0 rfl rfl rfl m f,
    ld_plane x1 ![1, 0, 0] inb_S8x96x384_S1x96x384_1_0_0 1 rfl rfl rfl m f,
    ld_plane x1 ![2, 0, 0] inb_S8x96x384_S1x96x384_2_0_0 2 rfl rfl rfl m f,
    ld_plane x1 ![3, 0, 0] inb_S8x96x384_S1x96x384_3_0_0 3 rfl rfl rfl m f,
    ld_plane x1 ![4, 0, 0] inb_S8x96x384_S1x96x384_4_0_0 4 rfl rfl rfl m f,
    ld_plane x1 ![5, 0, 0] inb_S8x96x384_S1x96x384_5_0_0 5 rfl rfl rfl m f,
    ld_plane x1 ![6, 0, 0] inb_S8x96x384_S1x96x384_6_0_0 6 rfl rfl rfl m f,
    ld_plane x1 ![7, 0, 0] inb_S8x96x384_S1x96x384_7_0_0 7 rfl rfl rfl m f,
    ld_row x2 ![0, 0] inb_S8x384_S1x384_0_0 0 rfl rfl f, ld_row x2 ![1, 0] inb_S8x384_S1x384_1_0 1 rfl rfl f,
    ld_row x2 ![2, 0] inb_S8x384_S1x384_2_0 2 rfl rfl f, ld_row x2 ![3, 0] inb_S8x384_S1x384_3_0 3 rfl rfl f,
    ld_row x2 ![4, 0] inb_S8x384_S1x384_4_0 4 rfl rfl f, ld_row x2 ![5, 0] inb_S8x384_S1x384_5_0 5 rfl rfl f,
    ld_row x2 ![6, 0] inb_S8x384_S1x384_6_0 6 rfl rfl f, ld_row x2 ![7, 0] inb_S8x384_S1x384_7_0 7 rfl rfl f]
  rfl

/-! ## The product -/

theorem lhs_axis0 (i : S256x384.Idx) (q : dot_S256x768_S768x384_S256x384_1_0_0_1_n_n.contr.Idx) :
    (dot_S256x768_S768x384_S256x384_1_0_0_1_n_n.lhsIdx i q 0).val = (i 0).val := by
  unfold DotDims.lhsIdx
  rw [dif_neg (show ¬(0 : Fin S256x768.rank) ∈ dot_S256x768_S768x384_S256x384_1_0_0_1_n_n.lhsBatch by decide), dif_pos (show (0 : Fin S256x768.rank) ∈ dot_S256x768_S768x384_S256x384_1_0_0_1_n_n.lhsNonContracting by decide)]
  rfl
theorem lhs_axis1 (i : S256x384.Idx) (q : dot_S256x768_S768x384_S256x384_1_0_0_1_n_n.contr.Idx) :
    (dot_S256x768_S768x384_S256x384_1_0_0_1_n_n.lhsIdx i q 1).val = (q ⟨0, by decide⟩).val :=
  dot_S256x768_S768x384_S256x384_1_0_0_1_n_n.lhsIdx_val_of_single rfl i q
theorem rhs_axis0 (i : S256x384.Idx) (q : dot_S256x768_S768x384_S256x384_1_0_0_1_n_n.contr.Idx) :
    (dot_S256x768_S768x384_S256x384_1_0_0_1_n_n.rhsIdx i q 0).val = (q ⟨0, by decide⟩).val :=
  dot_S256x768_S768x384_S256x384_1_0_0_1_n_n.rhsIdx_val_of_single rfl i q
theorem rhs_axis1 (i : S256x384.Idx) (q : dot_S256x768_S768x384_S256x384_1_0_0_1_n_n.contr.Idx) :
    (dot_S256x768_S768x384_S256x384_1_0_0_1_n_n.rhsIdx i q 1).val = (i 1).val := by
  unfold DotDims.rhsIdx
  rw [dif_neg (show ¬(1 : Fin S768x384.rank) ∈ dot_S256x768_S768x384_S256x384_1_0_0_1_n_n.rhsBatch by decide), dif_pos (show (1 : Fin S768x384.rank) ∈ dot_S256x768_S768x384_S256x384_1_0_0_1_n_n.rhsNonContracting by decide)]
  rfl

/-- The stored value at `(r, f)`: row `r` of `x` against column `f` of the weights, plus the bias at `f` (the
    narrowing of both operands is the identity on the extended reals, and the product accumulates into zero). -/
theorem pay1_apply (W : FVec Ideal S768x384 .f32) (x : Vec Ideal S256x768 .f32) (b : Vec Ideal S1x384 .f32) (r : Fin 256) (f : Fin 384) :
    k0_pay1 W x b (ix2 r f) = (∑ n : Fin 768, x (ix2 r n) * W (ix2 n f)) + b (ix2 (0 : Fin 1) f) := by
  unfold k0_pay1
  show FloatOps.matmul dot_S256x768_S768x384_S256x384_1_0_0_1_n_n none
        (truncf .bf16 (shapeCast S256x768 x shapeCasts_S256x768_S256x768) bitsLt_bf16_f32) (truncf .bf16 W bitsLt_bf16_f32)
        (constant S256x384 .f32 0x00000000#32) (ix2 r f)
      + broadcastTo S256x384 (shapeCast S1x384 b shapeCasts_S1x384_S1x384) broadcasts_S1x384_S256x384 (ix2 r f) = _
  rw [shapeCast_self, shapeCast_self, broadcastTo_1b_ab_apply, Ideal.matmul_constant_zero_apply,
    ← Equiv.sum_comp (contrEquiv1 dot_S256x768_S768x384_S256x384_1_0_0_1_n_n 768 rfl rfl).symm]
  congr 1
  refine Finset.sum_congr rfl fun k _ => ?_
  have hk := contrEquiv1_symm_val dot_S256x768_S768x384_S256x384_1_0_0_1_n_n 768 rfl rfl k
  have el : dot_S256x768_S768x384_S256x384_1_0_0_1_n_n.lhsIdx (ix2 r f) ((contrEquiv1 dot_S256x768_S768x384_S256x384_1_0_0_1_n_n 768 rfl rfl).symm k) = ix2 r k := funext fun a => Fin.ext (by
    match a with
    | ⟨0, _⟩ => exact lhs_axis0 _ _
    | ⟨1, _⟩ => exact (lhs_axis1 _ _).trans hk)
  have er : dot_S256x768_S768x384_S256x384_1_0_0_1_n_n.rhsIdx (ix2 r f) ((contrEquiv1 dot_S256x768_S768x384_S256x384_1_0_0_1_n_n 768 rfl rfl).symm k) = ix2 k f := funext fun a => Fin.ext (by
    match a with
    | ⟨0, _⟩ => exact (rhs_axis0 _ _).trans hk
    | ⟨1, _⟩ => exact rhs_axis1 _ _)
  rw [el, er]
  rfl

/-! ## The output block -/

theorem hz2 : (![0, 0] : Fin 2 → Nat) = fun _ => 0 := funext fun a => by fin_cases a <;> rfl

/-- The output block's element `(r, f)`: row `r` of the `x` block against the weights of column `f`, plus the bias at `f`. -/
theorem out0_4_apply (x0 : Vec Ideal S256x768 .f32) (x1 : Vec Ideal S8x96x384 .i32) (x2 : Vec Ideal S8x384 .f32)
    (x3 : Vec Ideal S1x384 .f32) (r : Fin 256) (f : Fin 384) :
    out0_4 (F := Ideal) x0 x1 x2 x3 (ix2 r f)
      = outK (fun m p => x0 (ix2 r ⟨8 * m.val + p.val, by have := m.isLt; have := p.isLt; omega⟩))
          (fun k => x2 (ix2 k f)) (fun k m => x1 (ix3 k m f)) (x3 (ix2 0 f)) := by
  unfold out0_4
  rw [View.canon_unit_zero hz2]
  rw [View.ld_unit_zero (S := S256x768) hz2, View.ld_unit_zero (S := S1x384) hz2]
  refine (pay1_apply (weights x1 x2) x0 x3 r f).trans ?_
  unfold outK
  refine congrArg₂ (· + ·) (Finset.sum_congr rfl fun n _ => ?_) rfl
  have hn8 : n.val = 8 * (n.val / 8) + n.val % 8 := by omega
  rw [weights_apply x1 x2 n ⟨n.val / 8, by have := n.isLt; omega⟩ ⟨n.val % 8, by omega⟩ hn8 f]
  have hx : x0 (ix2 r n) = x0 (ix2 r ⟨8 * (n.val / 8) + n.val % 8, by have := n.isLt; omega⟩) :=
    congrArg (fun j => x0 (ix2 r j)) (Fin.ext hn8)
  rw [hx]

end Cert.KernelIdeal.Payload
end
-- ==== Proof.KernelValue.lean ====
/-
  The kernel's run, with its result named.

  The two grid points write the two halves of the output's feature axis: point `t` stages all of `x`, columns
  `384t .. 384t + 383` of the bytes, the scales and the bias, and writes back columns `384t ..` of the 256 × 768
  output.  Block by block the written values are one function `G` of the arrays the region stages: element `(r, n)`
  is row `r` of `x` contracted with the weights of feature `n`, plus the bias at `n` — every block is its array read
  at block index × block size + the coordinate inside the block, and only the column block index moves, the same
  for the bytes, the scales, the bias and the output.  Column `n` lies in the block of the point whose column block
  is `n / 384`, so the two blocks cover the output and the array ends at `G`.  The staged arrays are the arguments in
  the same row-major order (leading unit axes dropped or added; rows `64a + b` of `x` for `(a, b)`), and the reshape
  after the region relays rows `64a + b` as `(a, b)`: so the result at `(a, b, n)` is `kernelOut` of the arguments.
-/
import proofs.«407443_j10273561772174_3_alg».proof.Proof.KernelPayload

noncomputable section

namespace Cert.KernelIdeal.KValue

open Cert.KernelIdeal Cert.KernelIdeal.Gen Cert.SignBytes Idealize.ShloMosaic Idealize.ShloMosaic.TcCoe Idealize.SL.Sem
  Idealize.ShloMosaic.ValueIdx

section
variable (m : (ℓ : Loc nD τ sig) → Buf (Elt Ideal) ℓ)

/-- The four argument arrays on core `c`, as launched. -/
abbrev argX (c : Dev nD) : Cert.KernelIdeal.S4x64x768.Idx → EReal := m ((c.tc : Thread nD τ).loc main_arg0)
abbrev argS (c : Dev nD) : Cert.KernelIdeal.S1x8x768.Idx → EReal := m ((c.tc : Thread nD τ).loc main_arg1)
abbrev argB (c : Dev nD) : Cert.KernelIdeal.S1x8x96x768.Idx → BitVec 32 := m ((c.tc : Thread nD τ).loc main_arg2)
abbrev argN (c : Dev nD) : Cert.KernelIdeal.S768.Idx → EReal := m ((c.tc : Thread nD τ).loc main_arg3)

/-- The four arrays the region stages, as it finds them. -/
abbrev regX (c : Dev nD) : S256x768.Idx → EReal := V m c main_v0
abbrev regB (c : Dev nD) : S8x96x768.Idx → BitVec 32 := V m c main_v1
abbrev regS (c : Dev nD) : S8x768.Idx → EReal := V m c main_v2
abbrev regN (c : Dev nD) : S1x768.Idx → EReal := V m c main_v3

theorem regX_eq (c : Dev nD) : regX m c = shapeCast S256x768 (argX m c) shapeCasts_S4x64x768_S256x768 := by
  show StableHlo.after hostOps0 (fun b => m (c, b)) (Proc.devRef .tc main_v0) = _
  after_results
  rfl
theorem regB_eq (c : Dev nD) : regB m c = shapeCast S8x96x768 (argB m c) shapeCasts_S1x8x96x768_S8x96x768 := by
  show StableHlo.after hostOps0 (fun b => m (c, b)) (Proc.devRef .tc main_v1) = _
  after_results
  rfl
theorem regS_eq (c : Dev nD) : regS m c = shapeCast S8x768 (argS m c) shapeCasts_S1x8x768_S8x768 := by
  show StableHlo.after hostOps0 (fun b => m (c, b)) (Proc.devRef .tc main_v2) = _
  after_results
  rfl
theorem regN_eq (c : Dev nD) : regN m c = shapeCast S1x768 (argN m c) shapeCasts_S768_S1x768 := by
  show StableHlo.after hostOps0 (fun b => m (c, b)) (Proc.devRef .tc main_v3) = _
  after_results
  rfl

/-! ## The staged arrays read at an index: each is its argument at the same row-major position -/

theorem regX_apply (c : Dev nD) (a : Fin 4) (b : Fin 64) (n : Fin 768) (r : Fin 256) (hr : r.val = 64 * a.val + b.val) :
    regX m c (ix2 r n) = argX m c (ix3 a b n) := by
  rw [regX_eq]
  refine shapeCast_apply _ _ _ _ ?_
  rw [Shape.rowMajor_val_three, Shape.rowMajor_val_two]
  show (a.val * 64 + b.val) * 768 + n.val = r.val * 768 + n.val
  omega
theorem regB_apply (c : Dev nD) (k : Fin 8) (g : Fin 96) (n : Fin 768) :
    regB m c (ix3 k g n) = argB m c (ix4 0 k g n) := by
  rw [regB_eq]
  refine shapeCast_apply _ _ _ _ ?_
  rw [Shape.rowMajor_val_four, Shape.rowMajor_val_three]
  show ((0 * 8 + k.val) * 96 + g.val) * 768 + n.val = (k.val * 96 + g.val) * 768 + n.val
  omega
theorem regS_apply (c : Dev nD) (k : Fin 8) (n : Fin 768) :
    regS m c (ix2 k n) = argS m c (ix3 0 k n) := by
  rw [regS_eq]
  refine shapeCast_apply _ _ _ _ ?_
  rw [Shape.rowMajor_val_three, Shape.rowMajor_val_two]
  show (0 * 8 + k.val) * 768 + n.val = k.val * 768 + n.val
  omega
theorem regN_apply (c : Dev nD) (n : Fin 768) :
    regN m c (ix2 0 n) = argN m c (ix1 n) := by
  rw [regN_eq]
  refine shapeCast_apply _ _ _ _ ?_
  rw [Shape.rowMajor_val_one, Shape.rowMajor_val_two]
  show n.val = 0 * 768 + n.val
  omega

/-! ## What a point writes back -/

/-- The printed index maps, decided over the two points: the row block and every plane / group block index is 0,
    and the bytes', the scales' and the bias's column block is the output's. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = 0
    ∧ win0_1.index t (2 : Fin 3) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = 0 ∧ win0_4.index t (1 : Fin 2) ≤ 1 :=
  (by decide +kernel : ∀ t : Fin grid0.N, _)

/-- Each half of the columns is some point's. -/
theorem idx_onto : ∀ q : Fin 2, ∃ t : Fin cfg0.N, win0_4.index t = ![0, q.val] :=
  (by decide +kernel : ∀ q : Fin 2, ∃ t : Fin grid0.N, win0_4.index t = ![0, q.val])

/-- The 256 × 768 array the region writes, as ONE function of the arrays it stages: element `(r, n)` is row `r`
    of `x` contracted with the weights of output feature `n`, plus the bias at `n`. -/
def G (c : Dev nD) : S256x768.Idx → EReal := fun j =>
  outK (fun g p => regX m c (ix2 (j 0) ⟨8 * g.val + p.val, by have := g.isLt; have := p.isLt; omega⟩))
    (fun k => regS m c (ix2 k (j 1))) (fun k g => regB m c (ix3 k g (j 1))) (regN m c (ix2 0 (j 1)))

/-- The blocks the body is handed at point `t`, at their literal types. -/
abbrev blkX (c : Dev nD) (t : Fin cfg0.N) : Vec Ideal S256x768 .f32 := iblk m c 0 t
abbrev blkB (c : Dev nD) (t : Fin cfg0.N) : Vec Ideal S8x96x384 .i32 := iblk m c 1 t
abbrev blkS (c : Dev nD) (t : Fin cfg0.N) : Vec Ideal S8x384 .f32 := iblk m c 2 t
abbrev blkN (c : Dev nD) (t : Fin cfg0.N) : Vec Ideal S1x384 .f32 := iblk m c 3 t

/-- The `x` block is all of `x`. -/
theorem blkX_apply (c : Dev nD) (t : Fin cfg0.N) (r r' : Fin 256) (n : Fin 768) (hr : r'.val = r.val) :
    blkX m c t (ix2 r n) = regX m c (ix2 r' n) := by
  obtain ⟨e0, e1, -⟩ := idx_facts t
  show V m c main_v0 (((cfg0.win 0).blk t).view.emb (ix2 r n)) = V m c main_v0 (ix2 r' n)
  refine congrArg _ (funext fun a => Fin.ext ?_)
  match a with
  | ⟨0, _⟩ => show win0_0.index t (0 : Fin 2) * 256 + 1 * r.val = r'.val; omega
  | ⟨1, _⟩ => show win0_0.index t (1 : Fin 2) * 768 + 1 * n.val = n.val; omega

/-- The bytes' block holds columns `384·q ..` of every plane and group, `q` the output's column block. -/
theorem blkB_apply (c : Dev nD) (t : Fin cfg0.N) (k : Fin 8) (g : Fin 96) (f : Fin 384) (n : Fin 768)
    (hn : n.val = win0_4.index t (1 : Fin 2) * 384 + f.val) :
    blkB m c t (ix3 k g f) = regB m c (ix3 k g n) := by
  obtain ⟨-, -, e2, e3, e4, -⟩ := idx_facts t
  show V m c main_v1 (((cfg0.win 1).blk t).view.emb (ix3 k g f)) = V m c main_v1 (ix3 k g n)
  refine congrArg _ (funext fun a => Fin.ext ?_)
  match a with
  | ⟨0, _⟩ => show win0_1.index t (0 : Fin 3) * 8 + 1 * k.val = k.val; omega
  | ⟨1, _⟩ => show win0_1.index t (1 : Fin 3) * 96 + 1 * g.val = g.val; omega
  | ⟨2, _⟩ => show win0_1.index t (2 : Fin 3) * 384 + 1 * f.val = n.val; omega
/-- The scales' block holds the same columns of every plane. -/
theorem blkS_apply (c : Dev nD) (t : Fin cfg0.N) (k : Fin 8) (f : Fin 384) (n : Fin 768)
    (hn : n.val = win0_4.index t (1 : Fin 2) * 384 + f.val) :
    blkS m c t (ix2 k f) = regS m c (ix2 k n) := by
  obtain ⟨-, -, -, -, -, e5, e6, -⟩ := idx_facts t
  show V m c main_v2 (((cfg0.win 2).blk t).view.emb (ix2 k f)) = V m c main_v2 (ix2 k n)
  refine congrArg _ (funext fun a => Fin.ext ?_)
  match a with
  | ⟨0, _⟩ => show win0_2.index t (0 : Fin 2) * 8 + 1 * k.val = k.val; omega
  | ⟨1, _⟩ => show win0_2.index t (1 : Fin 2) * 384 + 1 * f.val = n.val; omega
/-- The bias's block holds the same columns. -/
theorem blkN_apply (c : Dev nD) (t : Fin cfg0.N) (f : Fin 384) (n : Fin 768)
    (hn : n.val = win0_4.index t (1 : Fin 2) * 384 + f.val) :
    blkN m c t (ix2 0 f) = regN m c (ix2 0 n) := by
  obtain ⟨-, -, -, -, -, -, -, e7, e8, -⟩ := idx_facts t
  show V m c main_v3 (((cfg0.win 3).blk t).view.emb (ix2 0 f)) = V m c main_v3 (ix2 0 n)
  refine congrArg _ (funext fun a => Fin.ext ?_)
  match a with
  | ⟨0, _⟩ => show win0_3.index t (0 : Fin 2) * 1 + 1 * 0 = 0; omega
  | ⟨1, _⟩ => show win0_3.index t (1 : Fin 2) * 384 + 1 * f.val = n.val; omega

/-- The kernel's arrangement over the blocks at point `t`, at block element `(r, f)`, is `G` at the array element
    that block element lies on. -/
theorem G_of_blocks (c : Dev nD) (t : Fin cfg0.N) (r : Fin 256) (f : Fin 384) (j : S256x768.Idx)
    (hj0 : (j 0).val = r.val) (hj1 : (j 1).val = win0_4.index t (1 : Fin 2) * 384 + f.val) :
    outK (fun g p => blkX m c t (ix2 r ⟨8 * g.val + p.val, by have := g.isLt; have := p.isLt; omega⟩))
        (fun k => blkS m c t (ix2 k f)) (fun k g => blkB m c t (ix3 k g f)) (blkN m c t (ix2 0 f))
      = G m c j := by
  have hX : (fun (g : Fin 96) (p : Fin 8) => blkX m c t (ix2 r ⟨8 * g.val + p.val, by have := g.isLt; have := p.isLt; omega⟩))
      = fun g p => regX m c (ix2 (j 0) ⟨8 * g.val + p.val, by have := g.isLt; have := p.isLt; omega⟩) :=
    funext fun g => funext fun p => blkX_apply m c t r (j 0) _ hj0
  have hS : (fun k : Fin 8 => blkS m c t (ix2 k f)) = fun k => regS m c (ix2 k (j 1)) :=
    funext fun k => blkS_apply m c t k f (j 1) hj1
  have hB : (fun (k : Fin 8) (g : Fin 96) => blkB m c t (ix3 k g f)) = fun k g => regB m c (ix3 k g (j 1)) :=
    funext fun k => funext fun g => blkB_apply m c t k g f (j 1) hj1
  have hN : blkN m c t (ix2 0 f) = regN m c (ix2 0 (j 1)) := blkN_apply m c t f (j 1) hj1
  exact congr (congr (congr (congrArg outK hX) hS) hB) hN

/-- WHAT POINT `t` WRITES BACK is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  obtain ⟨-, -, -, -, -, -, -, -, -, e9, -⟩ := idx_facts t
  refine funext fun (y : S256x384.Idx) => ?_
  obtain ⟨r, f, rfl⟩ : ∃ (r : Fin 256) (f : Fin 384), y = ix2 r f := ⟨y 0, y 1, eq_ix2 y⟩
  show out0_4 (F := Ideal) (blkX m c t) (blkB m c t) (blkS m c t) (blkN m c t) (ix2 r f)
    = G m c (((cfg0.win 4).blk t).view.emb (ix2 r f))
  refine (Payload.out0_4_apply (blkX m c t) (blkB m c t) (blkS m c t) (blkN m c t) r f).trans ?_
  refine G_of_blocks m c t r f _ ?_ ?_
  · show win0_4.index t (0 : Fin 2) * 256 + 1 * r.val = r.val; omega
  · show win0_4.index t (1 : Fin 2) * 384 + 1 * f.val = win0_4.index t (1 : Fin 2) * 384 + f.val; omega

/-! ## The two blocks cover the array -/

/-- An index of the array is in point `t`'s block iff each coordinate is in the block's range on its axis. -/
theorem mem_blk (t : Fin cfg0.N) (i : S256x768.Idx) :
    i ∈ ((cfg0.win 4).blk t).view.set ↔ ∀ a : Fin 2, win0_4.index t a * S256x384.size a ≤ (i a).val
      ∧ (i a).val < win0_4.index t a * S256x384.size a + S256x384.size a := by
  show i ∈ ((View.whole main_v4).slice (win0_4.rect t)).set ↔ _
  rw [View.set_slice_whole, Rect.mem_set_unit]
  exact Iff.rfl

/-- Column `n` lies in the block of the point whose column block is `n / 384`. -/
theorem cover (i : S256x768.Idx) :
    ∃ t : Fin cfg0.N, (cfg0.win 4).flush t = true ∧ i ∈ ((cfg0.win 4).blk t).view.set := by
  have hi0 : (i 0).val < 256 := (i 0).isLt
  have hi1 : (i 1).val < 768 := (i 1).isLt
  obtain ⟨t, ht⟩ := idx_onto ⟨(i 1).val / 384, by omega⟩
  have q0 : win0_4.index t (0 : Fin 2) = 0 := congrFun ht 0
  have q1 : win0_4.index t (1 : Fin 2) = (i 1).val / 384 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 384 ≤ (i 1).val ∧ (i 1).val < win0_4.index t (1 : Fin 2) * 384 + 384; omega

/-- THE ARRAY after the region is `G`. -/
theorem final (c : Dev nD) : (dats m 0 c).arrAt 4 cfg0.N = G m c :=
  (dats m 0 c).arrAt_eq_of_cover 4 (G m c) (fun t _ => flushed_eq m c t) cover

/-! ## The reshape after the region, and the result -/

/-- `G` at row `64a + b`, column `n` is the kernel's arrangement of the ARGUMENT arrays at `(a, b, n)`: each staged
    array is its argument in the same row-major order. -/
theorem G_apply (c : Dev nD) (a : Fin 4) (b : Fin 64) (n : Fin 768) (r : Fin 256) (hr : r.val = 64 * a.val + b.val) :
    G m c (ix2 r n) = kernelOut (argX m c) (argS m c) (argB m c) (argN m c) (ix3 a b n) := by
  have hX : (fun (g : Fin 96) (p : Fin 8) => regX m c (ix2 r ⟨8 * g.val + p.val, by have := g.isLt; have := p.isLt; omega⟩))
      = rowOf (argX m c) (ix3 a b n) :=
    funext fun g => funext fun p => regX_apply m c a b _ r hr
  have hS : (fun k : Fin 8 => regS m c (ix2 k n)) = scaleOf (argS m c) (ix3 a b n) :=
    funext fun k => regS_apply m c k n
  have hB : (fun (k : Fin 8) (g : Fin 96) => regB m c (ix3 k g n)) = bytesOf (argB m c) (ix3 a b n) :=
    funext fun k => funext fun g => regB_apply m c k g n
  have hN : regN m c (ix2 0 n) = biasOf (argN m c) (ix3 a b n) := regN_apply m c n
  exact congr (congr (congr (congrArg outK hX) hS) hB) hN

/-- The result buffer after the lines that follow the region: `G` relaid as 4 × 64 × 768. -/
theorem tail_eq (c : Dev nD) :
    Pipeline.afterTail₀ cfgs (dats m) 0 (V0 m) [hostOps1] c main_v5
      = shapeCast Cert.KernelIdeal.S4x64x768 (G m c) shapeCasts_S256x768_S4x64x768 := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v4) = G m c :=
    (Pipeline.withArrays_arr spec0 launch0.win.arr_inj c _ _ 4).trans (final m c)
  rw [e]
  rfl

/-- The result buffer is `kernelOut` of the argument arrays: row `64a + b` of the 256 × 768 array is `(a, b)` of the
    4 × 64 × 768 one. -/
theorem result (c : Dev nD) :
    Pipeline.afterTail₀ cfgs (dats m) 0 (V0 m) [hostOps1] c main_v5
      = kernelOut (argX m c) (argS m c) (argB m c) (argN m c) := by
  rw [tail_eq]
  refine funext fun (i : Cert.KernelIdeal.S4x64x768.Idx) => ?_
  obtain ⟨a, b, n, rfl⟩ : ∃ (a : Fin 4) (b : Fin 64) (n : Fin 768), i = ix3 a b n := ⟨i 0, i 1, i 2, eq_ix3 i⟩
  have hlt : 64 * a.val + b.val < 256 := by have := a.isLt; have := b.isLt; omega
  refine (shapeCast_apply _ _ _ (ix2 ⟨64 * a.val + b.val, hlt⟩ n) ?_).trans (G_apply m c a b n _ rfl)
  rw [Shape.rowMajor_val_three, Shape.rowMajor_val_two]
  show (64 * a.val + b.val) * 768 + n.val = (a.val * 64 + b.val) * 768 + n.val
  omega

end

/-- Every weakly fair execution of the idealized kernel ends with the result at `kernelOut` of the argument arrays
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = kernelOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefTable.lean ====
/-
  The reference's 4 × 16 sign table, read: row `q`, column `j` holds `+1` where bit `3 - q` of `j` is set and `-1`
  where it is clear.

  The program computes it from two counters: `j` shifted right (arithmetically) by `3 + (-1)·q`, masked with `1`,
  compared with `0`, and a select between the constants `1.0` and `-1.0`.

  The proof reads the entry back through the stages to a closed expression in the 32-bit words of `j` and `q`. Three
  facts then finish it. The shift amount `3 + (2^32 - 1)·q` is the word `3 - q`, below the width, so the shift is the
  plain arithmetic one; `j` is below 16, so its sign bit is clear and the masked, shifted word is nonzero exactly where
  bit `3 - q` of `j` is set: this is checked over all 4 · 16 pairs. The pattern `0x3F800000` (sign 0, exponent 127,
  fraction 0) denotes `1`, and `0xBF800000` (the same with sign 1) denotes `-1`.
-/
import proofs.«407443_j10273561772174_3_alg».proof.Proof.RefRead
import proofs.«407443_j10273561772174_3_alg».proof.Proof.Spec

noncomputable section

namespace Cert.ReferenceIdeal.RefValue

open Cert.ReferenceIdeal Cert.ReferenceIdeal.Gen Cert.ReferenceIdeal.ReadP Cert.SignBytes Idealize.ShloMosaic
  Idealize.ShloMosaic.ValueIdx

/-- The single-precision pattern of sign 0, biased exponent 127 and fraction 0 denotes `1`. -/
theorem signTable_ofBits_one : Ideal.ofBits .f32 0x3F800000#32 = 1 := by
  simp [Ideal.ofBits, Ideal.ieee, -EReal.coe_mul]; norm_num

/-- The same pattern with the sign bit set denotes `-1`. -/
theorem signTable_ofBits_negOne : Ideal.ofBits .f32 0xBF800000#32 = -1 := by
  simp [Ideal.ofBits, Ideal.ieee, -EReal.coe_mul]; norm_num

/-- The word fact: for `q < 4` and `j < 16`, the word `j` shifted right arithmetically by `3 + (2^32 - 1)·q` (the word
    `3 - q`) and masked with `1` differs from `0` exactly where bit `3 - q` of `j` is set. A statement about 64 pairs
    of small numbers, each evaluated. -/
theorem signTable_word_bit (q : Fin 4) (j : Fin 16) :
    IntOp.cmpi .ne (IntOp.andi (IntOp.shrsi .host (BitVec.ofNat 32 j.val)
      (IntOp.addi 3#32 (IntOp.muli 4294967295#32 (BitVec.ofNat 32 q.val)))) 1#32) 0#32
      = BitVec.ofBool (j.val.testBit (3 - q.val)) := by
  revert q j; decide

/-- The sign table's entry. -/
theorem signTable_apply (q : Fin 4) (j : Fin 16) : val_main_v18 (F := Ideal) (ix2 q j) = pm q j := by
  -- read the entry back, stage by stage, to the counters and the constants
  rw [val_main_v18_apply, val_main_v17_apply, val_main_v16_apply, val_main_v14_apply, val_main_v12_apply,
    val_main_v10_apply, val_main_v8_apply, val_main_v2_apply, val_main_v11_apply, val_main_v9_apply,
    val_main_v7_apply, val_main_v6_apply, val_main_c_0_apply, val_main_v5_apply, val_main_v4_apply,
    val_main_c_apply, val_main_v3_apply, val_main_v13_apply, val_main_c_1_apply, val_main_v15_apply,
    val_main_c_2_apply, val_main_call0_v0_apply, val_main_cst_apply, val_main_call0_v1_apply,
    val_main_cst_3_apply]
  -- the broadcasts read column `j` of the first counter and row `q` of the second
  change Scalar.select (IntOp.cmpi .ne (IntOp.andi (IntOp.shrsi .host (BitVec.ofNat 32 j.val)
      (IntOp.addi 3#32 (IntOp.muli 4294967295#32 (BitVec.ofNat 32 q.val)))) 1#32) 0#32)
      (Ideal.ofBits .f32 0x3F800000#32) (Ideal.ofBits .f32 0xBF800000#32) = pm q j
  rw [signTable_word_bit, signTable_ofBits_one, signTable_ofBits_negOne]
  unfold pm
  -- the select follows the bit
  cases h : j.val.testBit (3 - q.val)
  · rw [if_neg (by decide)]; exact select_zero _ _
  · rw [if_pos rfl]; exact select_one _ _

end Cert.ReferenceIdeal.RefValue

end
-- ==== Proof.RefGroups.lean ====
/-
  The reference's table of one group, read at an index: entry `j` of group `m` of row `r` is the contraction of the
  group's first four features with column `j / 16` of the sign table plus that of its last four with column `j % 16`.

  The program reshapes `x` to rows of 96 groups of 8, slices each group into its two halves, contracts each half with
  the 4 × 16 sign table, adds the two 16-vectors as a 16 × 16 outer sum and flattens that to 256 entries.

  The proof reads the entry back through the stages. Two index facts carry it, both arithmetic on row-major positions:
  position `(r·96 + m)·256 + j` of the flattened table is entry `(r, m, j / 16, j % 16)` of the outer sum, and position
  `(r·96 + m)·8 + p` of the grouped view is feature `8m + p` of row `r % 64` of block `r / 64` of `x`. Each half's
  contraction is then, term by term, a feature times the sign table's entry, which is the sign `pm`.
-/
import proofs.«407443_j10273561772174_3_alg».proof.Proof.RefTable

noncomputable section

open scoped BigOperators

namespace Cert.ReferenceIdeal.RefValue

open Cert.ReferenceIdeal Cert.ReferenceIdeal.Gen Cert.ReferenceIdeal.ReadP Cert.SignBytes Idealize.ShloMosaic
  Idealize.ShloMosaic.ValueIdx

/-- The flattened entry `j` of a 16 × 16 block sits at row `j / 16`, column `j % 16`. -/
theorem groupTable_idx_v28 (r : Fin 256) (m : Fin 96) (j : Fin 256) :
    idx_main_v28 (ix3 r m j)
      = ix4 r m (⟨j.val / 16, by have := j.isLt; omega⟩ : Fin 16) (⟨j.val % 16, by omega⟩ : Fin 16) := by
  have hr := r.isLt; have hm := m.isLt; have hj := j.isLt
  funext a
  match a with
  | ⟨0, _⟩ => exact Fin.ext (by show ((r.val * 96 + m.val) * 256 + j.val) / 24576 = r.val; omega)
  | ⟨1, _⟩ => exact Fin.ext (by show ((r.val * 96 + m.val) * 256 + j.val) / 256 % 96 = m.val; omega)
  | ⟨2, _⟩ => exact Fin.ext (by show ((r.val * 96 + m.val) * 256 + j.val) / 16 % 16 = j.val / 16; omega)
  | ⟨3, _⟩ => exact Fin.ext (by show ((r.val * 96 + m.val) * 256 + j.val) % 16 = j.val % 16; omega)

/-- Feature `p` of group `m` of row `r` of the 256 × 96 × 8 view is feature `8m + p` of row `r % 64` of block `r / 64`. -/
theorem groupTable_idx_v0_v1 (r : Fin 256) (m : Fin 96) (p : Fin 8) :
    idx_main_v0 (idx_main_v1 (ix3 r m p))
      = ix3 (⟨r.val / 64, by have := r.isLt; omega⟩ : Fin 4) (⟨r.val % 64, by omega⟩ : Fin 64)
          (⟨8 * m.val + p.val, by have := m.isLt; have := p.isLt; omega⟩ : Fin 768) := by
  have hr := r.isLt; have hm := m.isLt; have hp := p.isLt
  funext a
  match a with
  | ⟨0, _⟩ => exact Fin.ext (by
      show (((r.val * 96 + m.val) * 8 + p.val) / 768 * 768 + ((r.val * 96 + m.val) * 8 + p.val) % 768) / 49152 = r.val / 64
      omega)
  | ⟨1, _⟩ => exact Fin.ext (by
      show (((r.val * 96 + m.val) * 8 + p.val) / 768 * 768 + ((r.val * 96 + m.val) * 8 + p.val) % 768) / 768 % 64 = r.val % 64
      omega)
  | ⟨2, _⟩ => exact Fin.ext (by
      show (((r.val * 96 + m.val) * 8 + p.val) / 768 * 768 + ((r.val * 96 + m.val) * 8 + p.val) % 768) % 768 = 8 * m.val + p.val
      omega)

/-- One half of a group contracted with a column of the sign table: the first half. -/
theorem groupTable_firstHalf (x : FVec Ideal Cert.ReferenceIdeal.S4x64x768 .f32) (r : Fin 256) (m : Fin 96) (c : Fin 16) :
    val_main_v20 (F := Ideal) x (ix3 r m c)
      = ∑ q : Fin 4, x (ix3 (⟨r.val / 64, by have := r.isLt; omega⟩ : Fin 4) (⟨r.val % 64, by omega⟩ : Fin 64)
          (⟨8 * m.val + (⟨q.val, by have := q.isLt; omega⟩ : Fin 8).val, by have := m.isLt; have := q.isLt; show 8 * m.val + q.val < 768; omega⟩ : Fin 768)) * pm q c := by
  rw [val_main_v20_apply]
  refine Finset.sum_congr rfl fun q _ => ?_
  have el : lidx_main_v20 (ix3 r m c) q = ix3 r m q := by
    funext a; match a with | ⟨0, _⟩ => rfl | ⟨1, _⟩ => rfl | ⟨2, _⟩ => rfl
  have er : ridx_main_v20 (ix3 r m c) q = ix2 q c := by
    funext a; match a with | ⟨0, _⟩ => rfl | ⟨1, _⟩ => rfl
  have es : idx_main_v19 (ix3 r m q) = ix3 r m (⟨q.val, by have := q.isLt; omega⟩ : Fin 8) := by
    funext a; match a with | ⟨0, _⟩ => rfl | ⟨1, _⟩ => rfl | ⟨2, _⟩ => rfl
  rw [el, er, signTable_apply, val_main_v19_apply, es, val_main_v1_apply, val_main_v0_apply, groupTable_idx_v0_v1]

/-- The second half. -/
theorem groupTable_secondHalf (x : FVec Ideal Cert.ReferenceIdeal.S4x64x768 .f32) (r : Fin 256) (m : Fin 96) (c : Fin 16) :
    val_main_v22 (F := Ideal) x (ix3 r m c)
      = ∑ q : Fin 4, x (ix3 (⟨r.val / 64, by have := r.isLt; omega⟩ : Fin 4) (⟨r.val % 64, by omega⟩ : Fin 64)
          (⟨8 * m.val + (⟨q.val + 4, by have := q.isLt; omega⟩ : Fin 8).val, by have := m.isLt; have := q.isLt; show 8 * m.val + (q.val + 4) < 768; omega⟩ : Fin 768)) * pm q c := by
  rw [val_main_v22_apply]
  refine Finset.sum_congr rfl fun q _ => ?_
  have el : lidx_main_v22 (ix3 r m c) q = ix3 r m q := by
    funext a; match a with | ⟨0, _⟩ => rfl | ⟨1, _⟩ => rfl | ⟨2, _⟩ => rfl
  have er : ridx_main_v22 (ix3 r m c) q = ix2 q c := by
    funext a; match a with | ⟨0, _⟩ => rfl | ⟨1, _⟩ => rfl
  have es : idx_main_v21 (ix3 r m q) = ix3 r m (⟨q.val + 4, by have := q.isLt; omega⟩ : Fin 8) := by
    funext a
    match a with
    | ⟨0, _⟩ => rfl
    | ⟨1, _⟩ => rfl
    | ⟨2, _⟩ => exact Fin.ext (by show 4 + q.val = q.val + 4; omega)
  rw [el, er, signTable_apply, val_main_v21_apply, es, val_main_v1_apply, val_main_v0_apply, groupTable_idx_v0_v1]

/-- The group table's entry. -/
theorem groupTable_apply (x : FVec Ideal Cert.ReferenceIdeal.S4x64x768 .f32) (r : Fin 256) (m : Fin 96) (j : Fin 256) :
    val_main_v28 (F := Ideal) x (ix3 r m j)
      = table (fun p => x (ix3 (⟨r.val / 64, by have := r.isLt; omega⟩ : Fin 4) (⟨r.val % 64, by omega⟩ : Fin 64)
          (⟨8 * m.val + p.val, by have := m.isLt; have := p.isLt; omega⟩ : Fin 768))) j := by
  rw [val_main_v28_apply, groupTable_idx_v28, val_main_v27_apply, val_main_v25_apply, val_main_v26_apply,
    val_main_v23_apply, val_main_v24_apply]
  have e1 : idx_main_v23 (idx_main_v25 (ix4 r m (⟨j.val / 16, by have := j.isLt; omega⟩ : Fin 16)
      (⟨j.val % 16, by omega⟩ : Fin 16))) = ix3 r m (⟨j.val / 16, by have := j.isLt; omega⟩ : Fin 16) := by
    funext a; match a with | ⟨0, _⟩ => rfl | ⟨1, _⟩ => rfl | ⟨2, _⟩ => rfl
  have e2 : idx_main_v24 (idx_main_v26 (ix4 r m (⟨j.val / 16, by have := j.isLt; omega⟩ : Fin 16)
      (⟨j.val % 16, by omega⟩ : Fin 16))) = ix3 r m (⟨j.val % 16, by omega⟩ : Fin 16) := by
    funext a; match a with | ⟨0, _⟩ => rfl | ⟨1, _⟩ => rfl | ⟨2, _⟩ => rfl
  rw [e1, e2, groupTable_firstHalf, groupTable_secondHalf]
  rfl

end Cert.ReferenceIdeal.RefValue

end
-- ==== Proof.RefGather.lean ====
/-
  The reference's gather, read at an index.

  The operand is the array of group tables, `[256 rows, 96 groups, 256 entries]`; the start indices are one word per
  `(plane, group, feature)`.  The dimension numbers make the operand's row axis an offset axis (the result's row), its
  group axis a batching axis (paired with the start indices' group axis) and its entry axis the one the start index
  addresses: result element `(r, k, m, f)` is the operand at `(r, m, s)`, `s` the start word of `(k, m, f)` read as a signed
  integer and clamped into `[0, 255]`.

  Each coordinate of the operand index is a sum of three parts: the clamped start, the batch coordinate and the offset
  coordinate. On each of the three operand axes exactly one part is not zero: the offset on the row axis, the batch
  coordinate on the group axis, the start on the entry axis.
-/
import proofs.«407443_j10273561772174_3_alg».proof.ReferenceIdeal
import proofs.«407443_j10273561772174_3_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

/-- The gather's element `(r, k, m, f)`: the table of row `r`, group `m`, at the start word of `(k, m, f)` clamped. -/
theorem gather_apply {α : Type} (T : S256x96x256.Idx → α) (idx : IVec S8x96x768x1 32)
    (r : Fin 256) (k : Fin 8) (m : Fin 96) (f : Fin 768) :
    Host.gather gather_S256x96x256_S8x96x768x1_S256x8x96x768_0_2_1_1_2_3_25611 T idx (ix4 r k m f)
      = T (ix3 r m (⟨min (idx (ix4 k m f (0 : Fin 1))).toInt.toNat 255, by omega⟩ : Fin 256)) := by
  unfold Host.gather
  congr 1
  funext a
  refine Fin.ext ?_
  match a with
  | ⟨0, _⟩ =>
    -- the row axis: an offset axis, read from the result's first coordinate
    show gather_S256x96x256_S8x96x768x1_S256x8x96x768_0_2_1_1_2_3_25611.start (ix4 r k m f) idx 0 + gather_S256x96x256_S8x96x768x1_S256x8x96x768_0_2_1_1_2_3_25611.batchCoord (ix4 r k m f) 0 + gather_S256x96x256_S8x96x768x1_S256x8x96x768_0_2_1_1_2_3_25611.offCoord (ix4 r k m f) 0 = r.val
    have hs : (0 : Fin 3) ∉ gather_S256x96x256_S8x96x768x1_S256x8x96x768_0_2_1_1_2_3_25611.startIndexMap := by decide
    have hb : (0 : Fin 3) ∉ gather_S256x96x256_S8x96x768x1_S256x8x96x768_0_2_1_1_2_3_25611.operandBatchingDims := by decide
    have hk : (0 : Fin 3) ∈ gather_S256x96x256_S8x96x768x1_S256x8x96x768_0_2_1_1_2_3_25611.sKept := by decide
    have e1 : gather_S256x96x256_S8x96x768x1_S256x8x96x768_0_2_1_1_2_3_25611.start (ix4 r k m f) idx 0 = 0 := by unfold GatherDims.start; rw [dif_neg hs]
    have e2 : gather_S256x96x256_S8x96x768x1_S256x8x96x768_0_2_1_1_2_3_25611.batchCoord (ix4 r k m f) 0 = 0 := GatherDims.batchCoord_eq_zero _ _ _ hb
    have e3 : gather_S256x96x256_S8x96x768x1_S256x8x96x768_0_2_1_1_2_3_25611.offCoord (ix4 r k m f) 0 = r.val := by unfold GatherDims.offCoord; rw [dif_pos hk]; rfl
    omega
  | ⟨1, _⟩ =>
    -- the group axis: a batching axis, read from the result's coordinate on the paired group axis
    show gather_S256x96x256_S8x96x768x1_S256x8x96x768_0_2_1_1_2_3_25611.start (ix4 r k m f) idx 1 + gather_S256x96x256_S8x96x768x1_S256x8x96x768_0_2_1_1_2_3_25611.batchCoord (ix4 r k m f) 1 + gather_S256x96x256_S8x96x768x1_S256x8x96x768_0_2_1_1_2_3_25611.offCoord (ix4 r k m f) 1 = m.val
    have hs : (1 : Fin 3) ∉ gather_S256x96x256_S8x96x768x1_S256x8x96x768_0_2_1_1_2_3_25611.startIndexMap := by decide
    have hb : (1 : Fin 3) ∈ gather_S256x96x256_S8x96x768x1_S256x8x96x768_0_2_1_1_2_3_25611.operandBatchingDims := by decide
    have hk : (1 : Fin 3) ∉ gather_S256x96x256_S8x96x768x1_S256x8x96x768_0_2_1_1_2_3_25611.sKept := by decide
    have e1 : gather_S256x96x256_S8x96x768x1_S256x8x96x768_0_2_1_1_2_3_25611.start (ix4 r k m f) idx 1 = 0 := by unfold GatherDims.start; rw [dif_neg hs]
    have e2 : gather_S256x96x256_S8x96x768x1_S256x8x96x768_0_2_1_1_2_3_25611.batchCoord (ix4 r k m f) 1 = m.val := by unfold GatherDims.batchCoord; rw [dif_pos hb]; rfl
    have e3 : gather_S256x96x256_S8x96x768x1_S256x8x96x768_0_2_1_1_2_3_25611.offCoord (ix4 r k m f) 1 = 0 := GatherDims.offCoord_eq_zero _ _ _ hk
    omega
  | ⟨2, _⟩ =>
    -- the entry axis: the start word of (k, m, f), signed, clamped into the axis
    show gather_S256x96x256_S8x96x768x1_S256x8x96x768_0_2_1_1_2_3_25611.start (ix4 r k m f) idx 2 + gather_S256x96x256_S8x96x768x1_S256x8x96x768_0_2_1_1_2_3_25611.batchCoord (ix4 r k m f) 2 + gather_S256x96x256_S8x96x768x1_S256x8x96x768_0_2_1_1_2_3_25611.offCoord (ix4 r k m f) 2
      = min (idx (ix4 k m f (0 : Fin 1))).toInt.toNat 255
    have hs : (2 : Fin 3) ∈ gather_S256x96x256_S8x96x768x1_S256x8x96x768_0_2_1_1_2_3_25611.startIndexMap := by decide
    have hb : (2 : Fin 3) ∉ gather_S256x96x256_S8x96x768x1_S256x8x96x768_0_2_1_1_2_3_25611.operandBatchingDims := by decide
    have hk : (2 : Fin 3) ∉ gather_S256x96x256_S8x96x768x1_S256x8x96x768_0_2_1_1_2_3_25611.sKept := by decide
    have hsi : gather_S256x96x256_S8x96x768x1_S256x8x96x768_0_2_1_1_2_3_25611.siIdx (ix4 r k m f) ⟨List.idxOf (2 : Fin 3) gather_S256x96x256_S8x96x768x1_S256x8x96x768_0_2_1_1_2_3_25611.startIndexMap, List.idxOf_lt_length_iff.2 hs⟩
        = ix4 k m f (0 : Fin 1) := by
      funext b
      refine Fin.ext ?_
      match b with
      | ⟨0, _⟩ => rfl
      | ⟨1, _⟩ => rfl
      | ⟨2, _⟩ => rfl
      | ⟨3, _⟩ => rfl
    have e1 : gather_S256x96x256_S8x96x768x1_S256x8x96x768_0_2_1_1_2_3_25611.start (ix4 r k m f) idx 2 = min (idx (ix4 k m f (0 : Fin 1))).toInt.toNat 255 := by
      unfold GatherDims.start
      rw [dif_pos hs, hsi]
      rfl
    have e2 : gather_S256x96x256_S8x96x768x1_S256x8x96x768_0_2_1_1_2_3_25611.batchCoord (ix4 r k m f) 2 = 0 := GatherDims.batchCoord_eq_zero _ _ _ hb
    have e3 : gather_S256x96x256_S8x96x768x1_S256x8x96x768_0_2_1_1_2_3_25611.offCoord (ix4 r k m f) 2 = 0 := GatherDims.offCoord_eq_zero _ _ _ hk
    omega

end Cert.ReferenceIdeal.RefValue

end
-- ==== Proof.RefMask.lean ====
/-
  The reference's start index and in-range mask, read at an index.

  The start word of `(plane k, group m, feature f)` is the byte word wrapped once: `v + 256` where `v` is negative, `v`
  otherwise.  The mask is the conjunction `0 ≤ w` and `w ≤ 255` of the wrapped word `w` as a signed integer, reduced by
  `and` over a trailing axis of extent one (so it is that one conjunction, started at 1).
-/
import proofs.«407443_j10273561772174_3_alg».proof.Proof.RefRead
import proofs.«407443_j10273561772174_3_alg».proof.Proof.Spec
import Idealize.ShloMosaic.PureOps.Reduce
import Idealize.ShloMosaic.Lib.Affine

noncomputable section

namespace Cert.ReferenceIdeal.RefValue

open Cert.ReferenceIdeal Cert.ReferenceIdeal.Gen Cert.ReferenceIdeal.ReadP Cert.SignBytes Idealize.ShloMosaic
  Idealize.ShloMosaic.ValueIdx

/-- A select on the signed test `v < 0` between `v + 256` and `v` is the word wrapped once. -/
theorem refMask_select_slt_eq_wrap (v : BitVec 32) :
    Scalar.select (IntOp.cmpi .slt v 0#32) (IntOp.addi v 256#32) v = wrap v := by
  unfold wrap
  by_cases h : v.slt 0#32 = true
  · rw [if_pos h, (IntOp.cmpi_slt).2 (BitVec.slt_iff_toInt_lt.1 h), select_one]
    rfl
  · rw [if_neg h, eq_zero_of_ne_one (fun e => h (BitVec.slt_iff_toInt_lt.2 (IntOp.cmpi_slt.1 e))), select_zero]

/-- Position `(k, m, f, 0)` of the `8 × 96 × 768 × 1` arrangement is position `(0, k, m, f)` of the `1 × 8 × 96 × 768` one:
    the same row-major offset `(k·96 + m)·768 + f`. -/
theorem refMask_idx_v5_ix4 (k : Fin 8) (m : Fin 96) (f : Fin 768) :
    idx_main_call1_v5 (ix4 k m f (0 : Fin 1)) = ix4 (0 : Fin 1) k m f := by
  have hk := k.isLt
  have hm := m.isLt
  have hf := f.isLt
  funext a
  match a with
  | ⟨0, _⟩ => rfl
  | ⟨1, _⟩ =>
    apply Fin.ext
    show (((k.val * 96 + m.val) * 768 + f.val) * 1 + 0) / 73728 % 8 = k.val
    omega
  | ⟨2, _⟩ =>
    apply Fin.ext
    show (((k.val * 96 + m.val) * 768 + f.val) * 1 + 0) / 768 % 96 = m.val
    omega
  | ⟨3, _⟩ =>
    apply Fin.ext
    show (((k.val * 96 + m.val) * 768 + f.val) * 1 + 0) % 768 = f.val
    omega

/-- The start word the gather reads for `(k, m, f)` is the byte word wrapped. -/
theorem startIndex_apply (bn : IVec Cert.ReferenceIdeal.S1x8x96x768 32) (k : Fin 8) (m : Fin 96) (f : Fin 768) :
    val_main_call1_v5 (F := Ideal) bn (ix4 k m f (0 : Fin 1)) = wrap (bn (ix4 (0 : Fin 1) k m f)) := by
  rw [val_main_call1_v5_apply, refMask_idx_v5_ix4, val_main_call1_v4_apply, val_main_call1_v1_apply, val_main_call1_v3_apply,
    val_main_call1_v0_apply, val_main_call1_c_apply, val_main_call1_v2_apply, val_main_call1_c_0_apply]
  exact refMask_select_slt_eq_wrap _

/-- The reduced index `(k, m, f)` with the trailing coordinate `0` put back is `(k, m, f, 0)`. -/
theorem refMask_lift_ix3 (h : S8x96x768x1.Reduces [3] S8x96x768) (k : Fin 8) (m : Fin 96) (f : Fin 768)
    (z : Fin (S8x96x768x1.size 3)) : h.lift (ix3 k m f) z = ix4 k m f (0 : Fin 1) := by
  funext c
  apply Fin.ext
  match c with
  | ⟨0, _⟩ => rfl
  | ⟨1, _⟩ => rfl
  | ⟨2, _⟩ => rfl
  | ⟨3, _⟩ =>
    show z.val = 0
    have := z.isLt
    have e : S8x96x768x1.size 3 = 1 := rfl
    omega

/-- A fold by `and` over an axis of extent one is the one element combined with the start value. -/
theorem refMask_fold_andi_extent_one (n : Nat) (hn : n = 1) (b : BitVec 1) (g : Fin n → BitVec 1) :
    (Finset.univ : Finset (Fin n)).fold IntOp.andi b g = IntOp.andi (g ⟨0, by omega⟩) b := by
  subst hn
  rw [Finset.univ_unique, Finset.fold_singleton]
  rfl

/-- The mask bit of `(k, m, f)` is set exactly when the wrapped word lies in `[0, 255]`. -/
theorem mask_apply (bn : IVec Cert.ReferenceIdeal.S1x8x96x768 32) (k : Fin 8) (m : Fin 96) (f : Fin 768) :
    val_main_call1_v13 (F := Ideal) bn (ix3 k m f) = 1#1
      ↔ (0 ≤ (wrap (bn (ix4 (0 : Fin 1) k m f))).toInt ∧ (wrap (bn (ix4 (0 : Fin 1) k m f))).toInt ≤ 255) := by
  have hR : S8x96x768x1.Reduces [3] S8x96x768 := by decide
  unfold val_main_call1_v13
  rw [Host.reduce_eq_fold_single IntOp.andi _ _ reducesTo_S8x96x768x1_S8x96x768_d3 hR h_S_]
  -- the reduced axis has extent one: the fold has one term
  rw [refMask_fold_andi_extent_one (S8x96x768x1.size 3) rfl, IntOp.andi_eq_one, Function.comp_apply, val_main_call1_c_3_apply,
    refMask_lift_ix3, val_main_call1_v12_apply, IntOp.andi_eq_one, val_main_call1_v8_apply, val_main_call1_v11_apply,
    IntOp.cmpi_sge, IntOp.cmpi_sle, startIndex_apply, val_main_call1_v7_apply, val_main_call1_c_2_apply,
    val_main_call1_v10_apply, val_main_call1_v9_apply, val_main_call1_c_1_apply]
  have h0 : (0#32 : BitVec 32).toInt = 0 := by decide
  have h255 : (255#32 : BitVec 32).toInt = 255 := by decide
  rw [h0, h255]
  exact ⟨fun h => h.1, fun h => ⟨h, rfl⟩⟩

end Cert.ReferenceIdeal.RefValue

end
-- ==== Proof.RefValue.lean ====
/-
  The reference's result, read index by index.

  Output element `(a, b, f)` is row `64a + b` of the flattened `x`.  Per plane `k` and group `m` the program gathers,
  from the group's 256-entry table, the entry the byte of `(k, m, f)` names — a negative word wrapped once by 256, the
  entry replaced by the fill where the wrapped word is outside `[0, 255]` —, adds the groups, multiplies by the plane's
  scale at `f`, adds the planes and the bias at `f`.  The table's entry `16·hi + lo` is the contraction of the group's
  first four features with column `hi` of the sign table plus that of its last four with column `lo`.
-/
import proofs.«407443_j10273561772174_3_alg».proof.Proof.RefGroups
import proofs.«407443_j10273561772174_3_alg».proof.Proof.RefGather
import proofs.«407443_j10273561772174_3_alg».proof.Proof.RefMask

noncomputable section

open scoped BigOperators

namespace Cert.ReferenceIdeal.RefValue

open Cert.ReferenceIdeal Cert.ReferenceIdeal.Gen Cert.ReferenceIdeal.ReadP Cert.SignBytes Idealize.ShloMosaic
  Idealize.ShloMosaic.ValueIdx

/-- The fill of the gather's select is the bottom element. -/
theorem fill_apply (i : S256x8x96x768.Idx) : val_main_call1_v16 (F := Ideal) i = (⊥ : EReal) := by
  rw [val_main_call1_v16_apply, val_main_call1_cst_apply]
  show Ideal.ofBits .f32 0x7FC00000#32 = ⊥
  simp [Ideal.ofBits, Ideal.ieee]

/-- The operand of the gather at `(r, m, j)` is the group table's entry. -/
theorem operand_apply (x : FVec Ideal Cert.ReferenceIdeal.S4x64x768 .f32) (r : Fin 256) (m : Fin 96) (j : Fin 256) :
    val_main_call1_v6 (F := Ideal) x (ix3 r m j)
      = table (fun p => x (ix3 (⟨r.val / 64, by have := r.isLt; omega⟩ : Fin 4) (⟨r.val % 64, by omega⟩ : Fin 64)
          (⟨8 * m.val + p.val, by have := m.isLt; have := p.isLt; omega⟩ : Fin 768))) j := by
  rw [val_main_call1_v6_apply, val_main_v29_apply]
  have hidx : idx_main_v29 (idx_main_call1_v6 (ix3 r m j)) = ix3 r m j := by
    have hr := r.isLt; have hm := m.isLt; have hj := j.isLt
    funext a
    match a with
    | ⟨0, _⟩ => exact Fin.ext (by show ((r.val * 96 + m.val) * 256 + j.val) / 24576 = r.val; omega)
    | ⟨1, _⟩ => exact Fin.ext (by show ((r.val * 96 + m.val) * 256 + j.val) / 256 % 96 = m.val; omega)
    | ⟨2, _⟩ => exact Fin.ext (by show ((r.val * 96 + m.val) * 256 + j.val) % 256 = j.val; omega)
  rw [hidx, groupTable_apply]

/-- The gathered and masked entry of `(r, k, m, f)`. -/
theorem taken_apply (x : FVec Ideal Cert.ReferenceIdeal.S4x64x768 .f32) (bn : IVec Cert.ReferenceIdeal.S1x8x96x768 32)
    (r : Fin 256) (k : Fin 8) (m : Fin 96) (f : Fin 768) :
    val_main_v30 (F := Ideal) x bn (ix4 r k m f)
      = taken (fun j => val_main_call1_v6 (F := Ideal) x (ix3 r m j)) (bn (ix4 (0 : Fin 1) k m f)) := by
  rw [val_main_v30_apply, val_main_call1_v15_apply, fill_apply]
  have hidx : idx_main_call1_v15 (ix4 r k m f) = ix3 k m f := by
    funext a
    match a with
    | ⟨0, _⟩ => rfl
    | ⟨1, _⟩ => rfl
    | ⟨2, _⟩ => rfl
  rw [hidx]
  unfold val_main_call1_v14
  rw [gather_apply]
  unfold taken
  by_cases h : 0 ≤ (wrap (bn (ix4 (0 : Fin 1) k m f))).toInt ∧ (wrap (bn (ix4 (0 : Fin 1) k m f))).toInt ≤ 255
  · rw [(mask_apply bn k m f).2 h, select_one, if_pos h]
    congr 2
    apply Fin.ext
    show min (val_main_call1_v5 (F := Ideal) bn (ix4 k m f (0 : Fin 1))).toInt.toNat 255 = _
    rw [startIndex_apply]
  · have h0 : val_main_call1_v13 (F := Ideal) bn (ix3 k m f) = 0#1 :=
      eq_zero_of_ne_one (fun h1 => h ((mask_apply bn k m f).1 h1))
    rw [h0, select_zero, if_neg h]

/-- One plane's sum over the groups, at `(r, k, f)`. -/
theorem planeSum_apply (x : FVec Ideal Cert.ReferenceIdeal.S4x64x768 .f32) (bn : IVec Cert.ReferenceIdeal.S1x8x96x768 32)
    (r : Fin 256) (k : Fin 8) (f : Fin 768) :
    val_main_v31 (F := Ideal) x bn (ix3 r k f)
      = ∑ m : Fin 96, taken (table (fun p => x (ix3 (⟨r.val / 64, by have := r.isLt; omega⟩ : Fin 4)
          (⟨r.val % 64, by omega⟩ : Fin 64)
          (⟨8 * m.val + p.val, by have := m.isLt; have := p.isLt; omega⟩ : Fin 768)))) (bn (ix4 (0 : Fin 1) k m f)) := by
  rw [val_main_v31_apply, val_main_cst_4_apply]
  show Ideal.ofBits .f32 0x00000000#32 + _ = _
  rw [Ideal.ofBits_zero_f32, zero_add]
  refine Finset.sum_congr rfl fun m _ => ?_
  have hidx : idx_main_v31 (ix3 r k f) m = ix4 r k m f := by
    funext a
    match a with
    | ⟨0, _⟩ => rfl
    | ⟨1, _⟩ => rfl
    | ⟨2, _⟩ => rfl
    | ⟨3, _⟩ => rfl
  rw [hidx, taken_apply]
  congr 1
  funext j
  exact operand_apply x r m j

/-- The scale broadcast over the rows, at `(r, k, f)`. -/
theorem scale_apply (sc : FVec Ideal Cert.ReferenceIdeal.S1x8x768 .f32) (r : Fin 256) (k : Fin 8) (f : Fin 768) :
    val_main_v34 (F := Ideal) sc (ix3 r k f) = sc (ix3 (0 : Fin 1) k f) := by
  rw [val_main_v34_apply, val_main_v33_apply, val_main_v32_apply]
  congr 1
  have hk := k.isLt; have hf := f.isLt
  funext a
  match a with
  | ⟨0, _⟩ => rfl
  | ⟨1, _⟩ => exact Fin.ext (by show (k.val * 768 + f.val) / 768 % 8 = k.val; omega)
  | ⟨2, _⟩ => exact Fin.ext (by show (k.val * 768 + f.val) % 768 = f.val; omega)

/-- The planes' scaled sums added, at `(r, f)`. -/
theorem planes_apply (x : FVec Ideal Cert.ReferenceIdeal.S4x64x768 .f32) (sc : FVec Ideal Cert.ReferenceIdeal.S1x8x768 .f32)
    (bn : IVec Cert.ReferenceIdeal.S1x8x96x768 32) (r : Fin 256) (f : Fin 768) :
    val_main_v36 (F := Ideal) x sc bn (ix2 r f)
      = ∑ k : Fin 8, (∑ m : Fin 96, taken (table (fun p => x (ix3 (⟨r.val / 64, by have := r.isLt; omega⟩ : Fin 4)
          (⟨r.val % 64, by omega⟩ : Fin 64)
          (⟨8 * m.val + p.val, by have := m.isLt; have := p.isLt; omega⟩ : Fin 768)))) (bn (ix4 (0 : Fin 1) k m f)))
          * sc (ix3 (0 : Fin 1) k f) := by
  rw [val_main_v36_apply, val_main_cst_5_apply]
  show Ideal.ofBits .f32 0x00000000#32 + _ = _
  rw [Ideal.ofBits_zero_f32, zero_add]
  refine Finset.sum_congr rfl fun k _ => ?_
  have hidx : idx_main_v36 (ix2 r f) k = ix3 r k f := by
    funext a
    match a with
    | ⟨0, _⟩ => rfl
    | ⟨1, _⟩ => rfl
    | ⟨2, _⟩ => rfl
  rw [hidx, val_main_v35_apply]
  show val_main_v31 (F := Ideal) x bn (ix3 r k f) * val_main_v34 (F := Ideal) sc (ix3 r k f) = _
  rw [planeSum_apply, scale_apply]

/-- The bias broadcast over the rows, at `(r, f)`. -/
theorem bias_apply (b : FVec Ideal Cert.ReferenceIdeal.S768 .f32) (r : Fin 256) (f : Fin 768) :
    val_main_v38 (F := Ideal) b (ix2 r f) = b (ix1 f) := by
  rw [val_main_v38_apply, val_main_v37_apply]
  congr 1
  funext a
  match a with
  | ⟨0, _⟩ => rfl

/-- The reference's last stage is `referenceOut` of the arguments. -/
theorem result_eq (x : FVec Ideal Cert.ReferenceIdeal.S4x64x768 .f32) (sc : FVec Ideal Cert.ReferenceIdeal.S1x8x768 .f32)
    (bn : IVec Cert.ReferenceIdeal.S1x8x96x768 32) (b : FVec Ideal Cert.ReferenceIdeal.S768 .f32) :
    val_main_v40 (F := Ideal) x sc bn b = referenceOut x sc bn b := by
  funext i
  obtain ⟨a, c, f, rfl⟩ : ∃ (a : Fin 4) (c : Fin 64) (f : Fin 768), i = ix3 a c f := ⟨i 0, i 1, i 2, eq_ix3 i⟩
  have ha := a.isLt; have hc := c.isLt; have hf := f.isLt
  have hidx : idx_main_v40 (ix3 a c f) = ix2 (⟨a.val * 64 + c.val, by omega⟩ : Fin 256) f := by
    funext d
    match d with
    | ⟨0, _⟩ => exact Fin.ext (by show ((a.val * 64 + c.val) * 768 + f.val) / 768 = a.val * 64 + c.val; omega)
    | ⟨1, _⟩ => exact Fin.ext (by show ((a.val * 64 + c.val) * 768 + f.val) % 768 = f.val; omega)
  rw [val_main_v40_apply, hidx, val_main_v39_apply]
  show val_main_v36 (F := Ideal) x sc bn _ + val_main_v38 (F := Ideal) b _ = _
  rw [planes_apply, bias_apply]
  show _ = outR (rowOf x (ix3 a c f)) (scaleOf sc (ix3 a c f)) (bytesOf bn (ix3 a c f)) (biasOf b (ix3 a c f))
  unfold outR rowOf scaleOf bytesOf biasOf
  congr 1
  refine Finset.sum_congr rfl fun k _ => ?_
  congr 1
  refine Finset.sum_congr rfl fun m _ => ?_
  congr 2
  funext p
  congr 1
  funext d
  match d with
  | ⟨0, _⟩ => exact Fin.ext (by show (a.val * 64 + c.val) / 64 = a.val; omega)
  | ⟨1, _⟩ => exact Fin.ext (by show (a.val * 64 + c.val) % 64 = c.val; omega)
  | ⟨2, _⟩ => rfl

end Cert.ReferenceIdeal.RefValue

end
-- ==== Proof.lean ====
/- The proof of `Cert.Claim` (proofs.«407443_j10273561772174_3_alg».proof.Defs): the byte-sign linear layer, kernel against reference, over the
   extended reals.

   Both programs compute, for every row of `x` and output feature `f`,
       bias[f] + Σ_k scale[k, f] · Σ_m Σ_p (± x[8m + p]),     the sign by bit `7 - p` of the byte binary[k, m, f],
   the kernel by folding the planes `k` into one weight per input feature and contracting the row with it, the
   reference by gathering, per plane and group, one entry of the group's table of signed sums (Proof/Spec.lean states
   both arrangements; Proof/Bridge.lean proves them equal on real entries and bytes in `[-256, 256)`, over the bit facts
   of Proof/Bits.lean).  The precondition gives exactly that: finite float inputs, and byte words that index the
   256-entry table the way the reference's gather accepts them (Proof/Pre.lean).  The kernel's result array is read off
   its frame run (Proof/KernelPayload.lean, Proof/KernelValue.lean), the reference's off its run, stage by stage
   (Proof/RefTable.lean, Proof/RefGroups.lean, Proof/RefValue.lean).  The three frames are the programs' runs with the
   result dropped; the idealization rewrote nothing, so `preserves` is trivial. -/
import proofs.«407443_j10273561772174_3_alg».proof.Defs
import proofs.«407443_j10273561772174_3_alg».proof.Proof.Gen.Kernel
import proofs.«407443_j10273561772174_3_alg».proof.Proof.Gen.Kernel.Frame
import proofs.«407443_j10273561772174_3_alg».proof.Proof.Gen.KernelIdeal
import proofs.«407443_j10273561772174_3_alg».proof.Proof.Gen.KernelIdeal.Frame
import proofs.«407443_j10273561772174_3_alg».proof.Proof.Gen.ReferenceIdeal
import proofs.«407443_j10273561772174_3_alg».proof.Proof.Gen.Pre_finite_inputs
import proofs.«407443_j10273561772174_3_alg».proof.Proof.RefRun
import proofs.«407443_j10273561772174_3_alg».proof.Proof.RefRead
import proofs.«407443_j10273561772174_3_alg».proof.Proof.Pre
import proofs.«407443_j10273561772174_3_alg».proof.Proof.Bridge
import proofs.«407443_j10273561772174_3_alg».proof.Proof.KernelValue
import proofs.«407443_j10273561772174_3_alg».proof.Proof.RefValue
import Idealize.ShloMosaic.Adequacy
import Idealize.ShloMosaic.Init

noncomputable section

namespace Cert.Proof

open Idealize.ShloMosaic Idealize.SL.Sem

/-- The kernel as printed runs and keeps its arguments: its generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments, of which the precondition holds, the kernel's result array is
    `kernelOut` of the arguments and the reference's is `referenceOut` of them: one array, element by element. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v40_eq, Cert.ReferenceIdeal.RefValue.result_eq,
    (hagree c).1, (hagree c).2.1, (hagree c).2.2.1, (hagree c).2.2.2]
  obtain ⟨hx, hs, hb, hv⟩ := Cert.SignBytes.of_pre _ _ _ _ (hpre c)
  exact (Cert.SignBytes.kernelOut_eq_referenceOut _ _ _ _ hx hs hb hv).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
